-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x512 : Shape := ⟨3, ![8, 4096, 512]⟩
abbrev S64x8 : Shape := ⟨2, ![64, 8]⟩
abbrev S512x512 : Shape := ⟨2, ![512, 512]⟩
abbrev S512 : Shape := ⟨1, ![512]⟩
abbrev S8 : Shape := ⟨1, ![8]⟩
abbrev S2048x8 : Shape := ⟨2, ![2048, 8]⟩
abbrev S2048 : Shape := ⟨1, ![2048]⟩
abbrev S512x2048 : Shape := ⟨2, ![512, 2048]⟩
abbrev S_ : Shape := ⟨0, ![]⟩

class Facts : Prop where
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel
  bcast_S_S64x8 : S_.BroadcastsInDim S64x8 (![] : Fin 0 → Fin S64x8.rank)
  reducesTo_S64x8_S_d0_1 : S64x8.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S8 : S_.BroadcastsInDim S8 (![] : Fin 0 → Fin S8.rank)
  reducesTo_S8_S_d0 : S8.ReducesTo [0] S_
  bcast_S_S2048x8 : S_.BroadcastsInDim S2048x8 (![] : Fin 0 → Fin S2048x8.rank)
  reducesTo_S2048x8_S_d0_1 : S2048x8.ReducesTo [0, 1] S_
  bcast_S_S2048 : S_.BroadcastsInDim S2048 (![] : Fin 0 → Fin S2048.rank)
  reducesTo_S2048_S_d0 : S2048.ReducesTo [0] S_
  bcast_S_S512x2048 : S_.BroadcastsInDim S512x2048 (![] : Fin 0 → Fin S512x2048.rank)
  reducesTo_S512x2048_S_d0_1 : S512x2048.ReducesTo [0, 1] S_

variable [Facts]

def fn_part3 {F : FTy → Type} [FloatOps F] (main_arg11 : FVec F S512 .f32) (main_arg12 : FVec F S512 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512 .f32 := Host.absf main_arg12
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  main_v63

def fn_part2 {F : FTy → Type} [FloatOps F] (main_arg7 : FVec F S2048x8 .f32) (main_arg8 : FVec F S2048 .f32) (main_arg9 : FVec F S512x2048 .f32) (main_arg10 : FVec F S512 .f32) (main_arg11 : FVec F S512 .f32) (main_arg12 : FVec F S512 .f32) (main_v33 : IVec S_ 1) : IVec S_ 1 :=
  let main_v34 : FVec F S2048x8 .f32 := Host.absf main_arg7
  let main_cst_12 : FVec F S_ .f32 := constant S_ .f32 0x7F800000#32
  let main_v35 : FVec F S2048x8 .f32 := broadcastInDim S2048x8 ![] bcast_S_S2048x8 main_cst_12
  let main_v36 : IVec S2048x8 1 := cmpf .olt main_v34 main_v35
  let main_c_13 : IVec S_ 1 := constantI S_ 1 1#1
  let main_v37 : IVec S_ 1 := (fun x v => Host.reduce IntOp.andi x v reducesTo_S2048x8_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S512x2048 .f32 := Host.absf main_arg9
  let main_cst_16 : FVec F S_ .f32 := constant S_ .f32 0x7F800000#32
  let main_v45 : FVec F S512x2048 .f32 := broadcastInDim S512x2048 ![] bcast_S_S512x2048 main_cst_16
  let main_v46 : IVec S512x2048 1 := cmpf .olt main_v44 main_v45
  let main_c_17 : IVec S_ 1 := constantI S_ 1 1#1
  let main_v47 : IVec S_ 1 := (fun x v => Host.reduce IntOp.andi x v reducesTo_S512x2048_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg11 main_arg12 main_v48 main_v49 main_v50

def fn_part1 {F : FTy → Type} [FloatOps F] (main_arg4 : FVec F S512 .f32) (main_arg5 : FVec F S512 .f32) (main_arg6 : FVec F S8 .f32) (main_arg7 : FVec F S2048x8 .f32) (main_arg8 : FVec F S2048 .f32) (main_arg9 : FVec F S512x2048 .f32) (main_arg10 : FVec F S512 .f32) (main_arg11 : FVec F S512 .f32) (main_arg12 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S8 .f32 := Host.absf main_arg6
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S8x4096x512 .f32) (main_arg1 : FVec F S64x8 .f32) (main_arg2 : FVec F S512x512 .f32) (main_arg3 : FVec F S512 .f32) (main_arg4 : FVec F S512 .f32) (main_arg5 : FVec F S512 .f32) (main_arg6 : FVec F S8 .f32) (main_arg7 : FVec F S2048x8 .f32) (main_arg8 : FVec F S2048 .f32) (main_arg9 : FVec F S512x2048 .f32) (main_arg10 : FVec F S512 .f32) (main_arg11 : FVec F S512 .f32) (main_arg12 : FVec F S512 .f32) : IVec S_ 1 :=
  let main_v0 : FVec F S8x4096x512 .f32 := Host.absf main_arg0
  let main_cst : FVec F S_ .f32 := constant S_ .f32 0x7F800000#32
  let main_v1 : FVec F S8x4096x512 .f32 := broadcastInDim S8x4096x512 ![] bcast_S_S8x4096x512 main_cst
  let main_v2 : IVec S8x4096x512 1 := cmpf .olt main_v0 main_v1
  let main_c : IVec S_ 1 := constantI S_ 1 1#1
  let main_v3 : IVec S_ 1 := (fun x v => Host.reduce IntOp.andi x v reducesTo_S8x4096x512_S_d0_1_2 h_S_) main_v2 main_c
  let main_v4 : FVec F S64x8 .f32 := Host.absf main_arg1
  let main_cst_0 : FVec F S_ .f32 := constant S_ .f32 0x7F800000#32
  let main_v5 : FVec F S64x8 .f32 := broadcastInDim S64x8 ![] bcast_S_S64x8 main_cst_0
  let main_v6 : IVec S64x8 1 := cmpf .olt main_v4 main_v5
  let main_c_1 : IVec S_ 1 := constantI S_ 1 1#1
  let main_v7 : IVec S_ 1 := (fun x v => Host.reduce IntOp.andi x v reducesTo_S64x8_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_arg9 main_arg10 main_arg11 main_arg12 main_v13 main_v16
-- ==== Kernel.lean ====
abbrev S8x4096x512 : Shape := ⟨3, ![8, 4096, 512]⟩
abbrev S64x8 : Shape := ⟨2, ![64, 8]⟩
abbrev S512x512 : Shape := ⟨2, ![512, 512]⟩
abbrev S512 : Shape := ⟨1, ![512]⟩
abbrev S8 : Shape := ⟨1, ![8]⟩
abbrev S2048x8 : Shape := ⟨2, ![2048, 8]⟩
abbrev S2048 : Shape := ⟨1, ![2048]⟩
abbrev S512x2048 : Shape := ⟨2, ![512, 2048]⟩
abbrev S32768x512 : Shape := ⟨2, ![32768, 512]⟩
abbrev S1x512 : Shape := ⟨2, ![1, 512]⟩
abbrev S1x8 : Shape := ⟨2, ![1, 8]⟩
abbrev S_ : Shape := ⟨0, ![]⟩
abbrev S8x2048 : Shape := ⟨2, ![8, 2048]⟩
abbrev S1x2048 : Shape := ⟨2, ![1, 2048]⟩
abbrev S2048x512 : Shape := ⟨2, ![2048, 512]⟩
abbrev S512x1 : Shape := ⟨2, ![512, 1]⟩

abbrev nBuf : Space → Nat
  | .hbm => 37
  | .vmem => 16
  | .smem => 0
  | _ => 0

abbrev bufTy : (tb : Table) → Fin (tcTables nBuf tb) → BufTy
  | .hbm, ⟨0, _⟩ => ⟨S8x4096x512, .f32⟩
  | .hbm, ⟨1, _⟩ => ⟨S64x8, .f32⟩
  | .hbm, ⟨2, _⟩ => ⟨S512x512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S8, .f32⟩
  | .hbm, ⟨7, _⟩ => ⟨S2048x8, .f32⟩
  | .hbm, ⟨8, _⟩ => ⟨S2048, .f32⟩
  | .hbm, ⟨9, _⟩ => ⟨S512x2048, .f32⟩
  | .hbm, ⟨10, _⟩ => ⟨S512, .f32⟩
  | .hbm, ⟨11, _⟩ => ⟨S512, .f32⟩
  | .hbm, ⟨12, _⟩ => ⟨S512, .f32⟩
  | .hbm, ⟨13, _⟩ => ⟨S32768x512, .f32⟩
  | .hbm, ⟨14, _⟩ => ⟨S1x512, .f32⟩
  | .hbm, ⟨15, _⟩ => ⟨S512x512, .f32⟩
  | .hbm, ⟨16, _⟩ => ⟨S512x512, .bf16⟩
  | .hbm, ⟨17, _⟩ => ⟨S1x512, .f32⟩
  | .hbm, ⟨18, _⟩ => ⟨S1x512, .f32⟩
  | .hbm, ⟨19, _⟩ => ⟨S1x512, .f32⟩
  | .hbm, ⟨20, _⟩ => ⟨S1x8, .f32⟩
  | .hbm, ⟨21, _⟩ => ⟨S_, .i32⟩
  | .hbm, ⟨22, _⟩ => ⟨S_, .f32⟩
  | .hbm, ⟨23, _⟩ => ⟨S1x512, .f32⟩
  | .hbm, ⟨24, _⟩ => ⟨S8x2048, .f32⟩
  | .hbm, ⟨25, _⟩ => ⟨S_, .i32⟩
  | .hbm, ⟨26, _⟩ => ⟨S_, .f32⟩
  | .hbm, ⟨27, _⟩ => ⟨S512x2048, .f32⟩
  | .hbm, ⟨28, _⟩ => ⟨S512x2048, .bf16⟩
  | .hbm, ⟨29, _⟩ => ⟨S1x2048, .f32⟩
  | .hbm, ⟨30, _⟩ => ⟨S2048x512, .f32⟩
  | .hbm, ⟨31, _⟩ => ⟨S2048x512, .bf16⟩
  | .hbm, ⟨32, _⟩ => ⟨S1x512, .f32⟩
  | .hbm, ⟨33, _⟩ => ⟨S1x512, .f32⟩
  | .hbm, ⟨34, _⟩ => ⟨S1x512, .f32⟩
  | .hbm, ⟨35, _⟩ => ⟨S32768x512, .f32⟩
  | .hbm, ⟨36, _⟩ => ⟨S8x4096x512, .f32⟩
  | .local _ .vmem, ⟨0, _⟩ => ⟨S512x512, .f32⟩
  | .local _ .vmem, ⟨1, _⟩ => ⟨S512x512, .f32⟩
  | .local _ .vmem, ⟨2, _⟩ => ⟨S1x512, .f32⟩
  | .local _ .vmem, ⟨3, _⟩ => ⟨S512x512, .bf16⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S512x2048, .bf16⟩
  | .local _ .vmem, ⟨9, _⟩ => ⟨S1x2048, .f32⟩
  | .local _ .vmem, ⟨10, _⟩ => ⟨S2048x512, .bf16⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S512x512, .f32⟩
  | .local _ .vmem, ⟨15, _⟩ => ⟨S512x512, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_call0_v0 : Ref sig .tc := ⟨.hbm, 22, rfl⟩
abbrev main_v8 : Ref sig .tc := ⟨.hbm, 23, rfl⟩
abbrev main_v9 : Ref sig .tc := ⟨.hbm, 24, rfl⟩
abbrev main_c_0 : Ref sig .tc := ⟨.hbm, 25, rfl⟩
abbrev main_call1_v0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  shapeCasts_S8x4096x512_S32768x512 : S8x4096x512.ShapeCasts S32768x512
  shapeCasts_S64x8_S1x512 : S64x8.ShapeCasts S1x512
  transposes_S512x512_S512x512_1_0 : S512x512.Transposes [1, 0] S512x512
  bitsLt_bf16_f32 : FTy.bits .bf16 < FTy.bits .f32
  shapeCasts_S512_S1x512 : S512.ShapeCasts S1x512
  shapeCasts_S8_S1x8 : S8.ShapeCasts S1x8
  pads_S1x8_S1x512_000_05040 : S1x8.Pads (![0, 0] : Fin 2 → Nat) ![0, 504] ![0, 0] S1x512
  h_S_ : 0 < S_.numel
  transposes_S2048x8_S8x2048_1_0 : S2048x8.Transposes [1, 0] S8x2048
  pads_S8x2048_S512x2048_05040_000 : S8x2048.Pads (![0, 0] : Fin 2 → Nat) ![504, 0] ![0, 0] S512x2048
  shapeCasts_S2048_S1x2048 : S2048.ShapeCasts S1x2048
  transposes_S512x2048_S2048x512_1_0 : S512x2048.Transposes [1, 0] S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  reduces_S512x512_S512 : S512x512.Reduces [1] S512
  shapeCasts_S512_S512x1 : S512.ShapeCasts S512x1
  broadcasts_S512x1_S512x512 : S512x1.Broadcasts S512x512
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  shapeCasts_S32768x512_S8x4096x512 : S32768x512.ShapeCasts S8x4096x512
  dot_S512x512_S512x512_S512x512_1_0_0_1_n_n_wf : DotDims.WF S512x512 S512x512 S512x512 [1] [0] [0] [1] [] []
  dot_S512x512_S512x2048_S512x2048_1_0_0_1_n_n_wf : DotDims.WF S512x512 S512x2048 S512x2048 [1] [0] [0] [1] [] []
  dot_S512x2048_S2048x512_S512x512_1_0_0_1_n_n_wf : DotDims.WF S512x2048 S2048x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S32768x512.size a
  hwx0_0 : ∀ i : grid0.Coords, EltTy.bits .f32 = 32 ∨ (Rect.block (s := S32768x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x512.size a
  hwx0_1 : ∀ i : grid0.Coords, EltTy.bits .f32 = 32 ∨ (Rect.block (s := S1x512) S1x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x2048.size a ≤ S512x2048.size a
  hwx0_7 : ∀ i : grid0.Coords, EltTy.bits .bf16 = 32 ∨ (Rect.block (s := S512x2048) S512x2048.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x2048.size a ≤ S1x2048.size a
  hwx0_8 : ∀ i : grid0.Coords, EltTy.bits .f32 = 32 ∨ (Rect.block (s := S1x2048) S1x2048.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S2048x512.size a ≤ S2048x512.size a
  hwx0_9 : ∀ i : grid0.Coords, EltTy.bits .bf16 = 32 ∨ (Rect.block (s := S2048x512) S2048x512.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x512.size a ≤ S1x512.size a
  hwx0_10 : ∀ i : grid0.Coords, EltTy.bits .f32 = 32 ∨ (Rect.block (s := S1x512) S1x512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x512.size a ≤ S1x512.size a
  hwx0_11 : ∀ i : grid0.Coords, EltTy.bits .f32 = 32 ∨ (Rect.block (s := S1x512) S1x512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x512.size a ≤ S1x512.size a
  hwx0_12 : ∀ i : grid0.Coords, EltTy.bits .f32 = 32 ∨ (Rect.block (s := S1x512) S1x512.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S512x512.size a ≤ S32768x512.size a
  hwx0_13 : ∀ i : grid0.Coords, EltTy.bits .f32 = 32 ∨ (Rect.block (s := S32768x512) S512x512.size (cc0_transform_13 i) (hinb0_13 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf
def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf

abbrev win0_0 : Pipeline.Window sig grid0 :=
  Pipeline.Window.ofSpec (Memref.whole main_v0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S512x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12) S1x2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v14) S2048x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v15) S1x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v16) S1x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v17) S1x512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v18) S512x512.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S8x4096x512 : Shape := ⟨3, ![8, 4096, 512]⟩
abbrev S64x8 : Shape := ⟨2, ![64, 8]⟩
abbrev S512x512 : Shape := ⟨2, ![512, 512]⟩
abbrev S512 : Shape := ⟨1, ![512]⟩
abbrev S8 : Shape := ⟨1, ![8]⟩
abbrev S2048x8 : Shape := ⟨2, ![2048, 8]⟩
abbrev S2048 : Shape := ⟨1, ![2048]⟩
abbrev S512x2048 : Shape := ⟨2, ![512, 2048]⟩
abbrev S8x4096x64x8 : Shape := ⟨4, ![8, 4096, 64, 8]⟩
abbrev S1x1x64x8 : Shape := ⟨4, ![1, 1, 64, 8]⟩
abbrev S1x1x512 : Shape := ⟨3, ![1, 1, 512]⟩
abbrev S_ : Shape := ⟨0, ![]⟩
abbrev S8x4096 : Shape := ⟨2, ![8, 4096]⟩
abbrev S8x4096x1 : Shape := ⟨3, ![8, 4096, 1]⟩
abbrev S8x4096x8 : Shape := ⟨3, ![8, 4096, 8]⟩
abbrev S1x1x8 : Shape := ⟨3, ![1, 1, 8]⟩
abbrev S8x4096x2048 : Shape := ⟨3, ![8, 4096, 2048]⟩
abbrev S1x1x2048 : Shape := ⟨3, ![1, 1, 2048]⟩

abbrev nBuf : Space → Nat
  | .hbm => 99
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S64x8, .f32⟩
  | .hbm, ⟨2, _⟩ => ⟨S512x512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S8, .f32⟩
  | .hbm, ⟨7, _⟩ => ⟨S2048x8, .f32⟩
  | .hbm, ⟨8, _⟩ => ⟨S2048, .f32⟩
  | .hbm, ⟨9, _⟩ => ⟨S512x2048, .f32⟩
  | .hbm, ⟨10, _⟩ => ⟨S512, .f32⟩
  | .hbm, ⟨11, _⟩ => ⟨S512, .f32⟩
  | .hbm, ⟨12, _⟩ => ⟨S512, .f32⟩
  | .hbm, ⟨13, _⟩ => ⟨S8x4096x64x8, .f32⟩
  | .hbm, ⟨14, _⟩ => ⟨S1x1x64x8, .f32⟩
  | .hbm, ⟨15, _⟩ => ⟨S8x4096x64x8, .f32⟩
  | .hbm, ⟨16, _⟩ => ⟨S8x4096x64x8, .f32⟩
  | .hbm, ⟨17, _⟩ => ⟨S8x4096x64x8, .f32⟩
  | .hbm, ⟨18, _⟩ => ⟨S8x4096x512, .f32⟩
  | .hbm, ⟨19, _⟩ => ⟨S8x4096x512, .f32⟩
  | .hbm, ⟨20, _⟩ => ⟨S1x1x512, .f32⟩
  | .hbm, ⟨21, _⟩ => ⟨S8x4096x512, .f32⟩
  | .hbm, ⟨22, _⟩ => ⟨S8x4096x512, .f32⟩
  | .hbm, ⟨23, _⟩ => ⟨S8x4096x512, .f32⟩
  | .hbm, ⟨24, _⟩ => ⟨S_, .f32⟩
  | .hbm, ⟨25, _⟩ => ⟨S8x4096, .f32⟩
  | .hbm, ⟨26, _⟩ => ⟨S8x4096x1, .f32⟩
  | .hbm, ⟨27, _⟩ => ⟨S_, .f32⟩
  | .hbm, ⟨28, _⟩ => ⟨S8x4096x1, .f32⟩
  | .hbm, ⟨29, _⟩ => ⟨S8x4096x1, .f32⟩
  | .hbm, ⟨30, _⟩ => ⟨S8x4096x512, .f32⟩
  | .hbm, ⟨31, _⟩ => ⟨S8x4096x512, .f32⟩
  | .hbm, ⟨32, _⟩ => ⟨S8x4096x512, .f32⟩
  | .hbm, ⟨33, _⟩ => ⟨S_, .f32⟩
  | .hbm, ⟨34, _⟩ => ⟨S8x4096, .f32⟩
  | .hbm, ⟨35, _⟩ => ⟨S8x4096x1, .f32⟩
  | .hbm, ⟨36, _⟩ => ⟨S_, .f32⟩
  | .hbm, ⟨37, _⟩ => ⟨S8x4096x1, .f32⟩
  | .hbm, ⟨38, _⟩ => ⟨S8x4096x1, .f32⟩
  | .hbm, ⟨39, _⟩ => ⟨S8x4096x512, .f32⟩
  | .hbm, ⟨40, _⟩ => ⟨S8x4096x512, .f32⟩
  | .hbm, ⟨41, _⟩ => ⟨S_, .f32⟩
  | .hbm, ⟨42, _⟩ => ⟨S8x4096x1, .f32⟩
  | .hbm, ⟨43, _⟩ => ⟨S8x4096x1, .f32⟩
  | .hbm, ⟨44, _⟩ => ⟨S8x4096x1, .f32⟩
  | .hbm, ⟨45, _⟩ => ⟨S8x4096x512, .f32⟩
  | .hbm, ⟨46, _⟩ => ⟨S8x4096x512, .f32⟩
  | .hbm, ⟨47, _⟩ => ⟨S1x1x512, .f32⟩
  | .hbm, ⟨48, _⟩ => ⟨S8x4096x512, .f32⟩
  | .hbm, ⟨49, _⟩ => ⟨S8x4096x512, .f32⟩
  | .hbm, ⟨50, _⟩ => ⟨S1x1x512, .f32⟩
  | .hbm, ⟨51, _⟩ => ⟨S8x4096x512, .f32⟩
  | .hbm, ⟨52, _⟩ => ⟨S8x4096x512, .f32⟩
  | .hbm, ⟨53, _⟩ => ⟨S8x4096x8, .f32⟩
  | .hbm, ⟨54, _⟩ => ⟨S1x1x8, .f32⟩
  | .hbm, ⟨55, _⟩ => ⟨S8x4096x8, .f32⟩
  | .hbm, ⟨56, _⟩ => ⟨S8x4096x8, .f32⟩
  | .hbm, ⟨57, _⟩ => ⟨S8x4096x8, .f32⟩
  | .hbm, ⟨58, _⟩ => ⟨S8x4096x2048, .f32⟩
  | .hbm, ⟨59, _⟩ => ⟨S1x1x2048, .f32⟩
  | .hbm, ⟨60, _⟩ => ⟨S8x4096x2048, .f32⟩
  | .hbm, ⟨61, _⟩ => ⟨S8x4096x2048, .f32⟩
  | .hbm, ⟨62, _⟩ => ⟨S_, .f32⟩
  | .hbm, ⟨63, _⟩ => ⟨S8x4096x2048, .f32⟩
  | .hbm, ⟨64, _⟩ => ⟨S8x4096x2048, .f32⟩
  | .hbm, ⟨65, _⟩ => ⟨S8x4096x512, .f32⟩
  | .hbm, ⟨66, _⟩ => ⟨S1x1x512, .f32⟩
  | .hbm, ⟨67, _⟩ => ⟨S8x4096x512, .f32⟩
  | .hbm, ⟨68, _⟩ => ⟨S8x4096x512, .f32⟩
  | .hbm, ⟨69, _⟩ => ⟨S8x4096x512, .f32⟩
  | .hbm, ⟨70, _⟩ => ⟨S_, .f32⟩
  | .hbm, ⟨71, _⟩ => ⟨S8x4096, .f32⟩
  | .hbm, ⟨72, _⟩ => ⟨S8x4096x1, .f32⟩
  | .hbm, ⟨73, _⟩ => ⟨S_, .f32⟩
  | .hbm, ⟨74, _⟩ => ⟨S8x4096x1, .f32⟩
  | .hbm, ⟨75, _⟩ => ⟨S8x4096x1, .f32⟩
  | .hbm, ⟨76, _⟩ => ⟨S8x4096x512, .f32⟩
  | .hbm, ⟨77, _⟩ => ⟨S8x4096x512, .f32⟩
  | .hbm, ⟨78, _⟩ => ⟨S8x4096x512, .f32⟩
  | .hbm, ⟨79, _⟩ => ⟨S_, .f32⟩
  | .hbm, ⟨80, _⟩ => ⟨S8x4096, .f32⟩
  | .hbm, ⟨81, _⟩ => ⟨S8x4096x1, .f32⟩
  | .hbm, ⟨82, _⟩ => ⟨S_, .f32⟩
  | .hbm, ⟨83, _⟩ => ⟨S8x4096x1, .f32⟩
  | .hbm, ⟨84, _⟩ => ⟨S8x4096x1, .f32⟩
  | .hbm, ⟨85, _⟩ => ⟨S8x4096x512, .f32⟩
  | .hbm, ⟨86, _⟩ => ⟨S8x4096x512, .f32⟩
  | .hbm, ⟨87, _⟩ => ⟨S_, .f32⟩
  | .hbm, ⟨88, _⟩ => ⟨S8x4096x1, .f32⟩
  | .hbm, ⟨89, _⟩ => ⟨S8x4096x1, .f32⟩
  | .hbm, ⟨90, _⟩ => ⟨S8x4096x1, .f32⟩
  | .hbm, ⟨91, _⟩ => ⟨S8x4096x512, .f32⟩
  | .hbm, ⟨92, _⟩ => ⟨S8x4096x512, .f32⟩
  | .hbm, ⟨93, _⟩ => ⟨S1x1x512, .f32⟩
  | .hbm, ⟨94, _⟩ => ⟨S8x4096x512, .f32⟩
  | .hbm, ⟨95, _⟩ => ⟨S8x4096x512, .f32⟩
  | .hbm, ⟨96, _⟩ => ⟨S1x1x512, .f32⟩
  | .hbm, ⟨97, _⟩ => ⟨S8x4096x512, .f32⟩
  | .hbm, ⟨98, _⟩ => ⟨S8x4096x512, .f32⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_cst_0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_1 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_3 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_call0_cst : Ref sig .tc := ⟨.hbm, 62, rfl⟩
abbrev main_call0_v0 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_4 : Ref sig .tc := ⟨.hbm, 70, rfl⟩
abbrev main_v50 : Ref sig .tc := ⟨.hbm, 71, rfl⟩
abbrev main_v51 : Ref sig .tc := ⟨.hbm, 72, rfl⟩
abbrev main_cst_5 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_6 : Ref sig .tc := ⟨.hbm, 79, rfl⟩
abbrev main_v57 : Ref sig .tc := ⟨.hbm, 80, rfl⟩
abbrev main_v58 : Ref sig .tc := ⟨.hbm, 81, rfl⟩
abbrev main_cst_7 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_8 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩

abbrev nD : Nat := 1
abbrev τ : Topo := Topo.v7x

variable {F : FTy → Type} [FloatOps F]

class Facts₀ : Prop where
  shapeCasts_S8x4096x512_S8x4096x64x8 : S8x4096x512.ShapeCasts S8x4096x64x8
  bcast_S64x8_S1x1x64x8_2_3 : S64x8.BroadcastsInDim S1x1x64x8 (![2, 3] : Fin 2 → Fin S1x1x64x8.rank)
  bcast_S1x1x64x8_S8x4096x64x8_0_1_2_3 : S1x1x64x8.BroadcastsInDim S8x4096x64x8 (![0, 1, 2, 3] : Fin 4 → Fin S8x4096x64x8.rank)
  shapeCasts_S8x4096x64x8_S8x4096x512 : S8x4096x64x8.ShapeCasts S8x4096x512
  bcast_S512_S1x1x512_2 : S512.BroadcastsInDim S1x1x512 (![2] : Fin 1 → Fin S1x1x512.rank)
  bcast_S1x1x512_S8x4096x512_0_1_2 : S1x1x512.BroadcastsInDim S8x4096x512 (![0, 1, 2] : Fin 3 → Fin S8x4096x512.rank)
  reducesTo_S8x4096x512_S8x4096_d2 : S8x4096x512.ReducesTo [2] S8x4096
  h_S_ : 0 < S_.numel
  bcast_S8x4096_S8x4096x1_0_1 : S8x4096.BroadcastsInDim S8x4096x1 (![0, 1] : Fin 2 → Fin S8x4096x1.rank)
  bcast_S_S8x4096x1 : S_.BroadcastsInDim S8x4096x1 (![] : Fin 0 → Fin S8x4096x1.rank)
  bcast_S8x4096x1_S8x4096x512_0_1_2 : S8x4096x1.BroadcastsInDim S8x4096x512 (![0, 1, 2] : Fin 3 → Fin S8x4096x512.rank)
  slices_S8x4096x512_S8x4096x8_0_0_0 : S8x4096x512.Slices ![0, 0, 0] S8x4096x8
  bcast_S8_S1x1x8_2 : S8.BroadcastsInDim S1x1x8 (![2] : Fin 1 → Fin S1x1x8.rank)
  bcast_S1x1x8_S8x4096x8_0_1_2 : S1x1x8.BroadcastsInDim S8x4096x8 (![0, 1, 2] : Fin 3 → Fin S8x4096x8.rank)
  bcast_S2048_S1x1x2048_2 : S2048.BroadcastsInDim S1x1x2048 (![2] : Fin 1 → Fin S1x1x2048.rank)
  bcast_S1x1x2048_S8x4096x2048_0_1_2 : S1x1x2048.BroadcastsInDim S8x4096x2048 (![0, 1, 2] : Fin 3 → Fin S8x4096x2048.rank)
  bcast_S_S8x4096x2048 : S_.BroadcastsInDim S8x4096x2048 (![] : Fin 0 → Fin S8x4096x2048.rank)
  dot_S8x4096x512_S512x512_S8x4096x512_2_1_01_0_n_n_wf : DotDims.WF S8x4096x512 S512x512 S8x4096x512 [2] [1] [0, 1] [0] [] []
  dot_S8x4096x8_S2048x8_S8x4096x2048_2_1_01_0_n_n_wf : DotDims.WF S8x4096x8 S2048x8 S8x4096x2048 [2] [1] [0, 1] [0] [] []
  dot_S8x4096x2048_S512x2048_S8x4096x512_2_1_01_0_n_n_wf : DotDims.WF S8x4096x2048 S512x2048 S8x4096x512 [2] [1] [0, 1] [0] [] []

variable [Facts₀]

def dot_S8x4096x512_S512x512_S8x4096x512_2_1_01_0_n_n : DotDims S8x4096x512 S512x512 S8x4096x512 where
  lhsContracting := [2]
  rhsContracting := [1]
  lhsNonContracting := [0, 1]
  rhsNonContracting := [0]
  lhsBatch := []
  rhsBatch := []
  wf := dot_S8x4096x512_S512x512_S8x4096x512_2_1_01_0_n_n_wf
def dot_S8x4096x8_S2048x8_S8x4096x2048_2_1_01_0_n_n : DotDims S8x4096x8 S2048x8 S8x4096x2048 where
  lhsContracting := [2]
  rhsContracting := [1]
  lhsNonContracting := [0, 1]
  rhsNonContracting := [0]
  lhsBatch := []
  rhsBatch := []
  wf := dot_S8x4096x8_S2048x8_S8x4096x2048_2_1_01_0_n_n_wf
def dot_S8x4096x2048_S512x2048_S8x4096x512_2_1_01_0_n_n : DotDims S8x4096x2048 S512x2048 S8x4096x512 where
  lhsContracting := [2]
  rhsContracting := [1]
  lhsNonContracting := [0, 1]
  rhsNonContracting := [0]
  lhsBatch := []
  rhsBatch := []
  wf := dot_S8x4096x2048_S512x2048_S8x4096x512_2_1_01_0_n_n_wf

class Facts : Prop extends Facts₀ where

variable [Facts]
-- ==== Proof.Spec.lean ====
/-
  The mathematics both programs compute, one token row at a time, over the extended reals.

  A token row `x : Fin 512 → EReal` goes through four stages:
  * `attnRow`: the residual plus a dense layer applied to `cos (x + θ)`;
  * `lnRow`: layer normalisation (mean and variance as sums divided by 512, the reciprocal square
    root of the variance plus a small constant, then scale and shift);
  * `ffnRow`: the residual plus a two-layer network whose first layer reads only the first eight
    features, `cos (x q + θ q)` for `q < 8`, then a maximum with zero, then a second dense layer;
  * `lnRow` again.
  `ffnRowPad` is the same second stage written with a first layer over all 512 features whose
  weights vanish beyond the eighth feature: on the extended reals `a * 0 = 0` for every `a`, so
  the padded sum is the short sum (`ffnRowPad_eq`), whatever the padded phases are beyond the eighth.
-/
import Idealize.ShloMosaic.PureOps.Ideal
import Idealize.ShloMosaic.PureOps.Ideal.Laws

noncomputable section

namespace Cert.Spec

open Idealize.ShloMosaic

/-- The divisor 512 and the variance offset, as the binary32 values both programs print. -/
abbrev c512 : EReal := Ideal.ofBits .f32 0x44000000#32
abbrev eps : EReal := Ideal.ofBits .f32 0x3727C5AC#32

/-- The mean of a row: its sum divided by 512. -/
def mean (y : Fin 512 → EReal) : EReal := Ideal.div (∑ k : Fin 512, y k) c512

/-- The variance of a row: the sum of squared deviations from the mean, divided by 512. -/
def var (y : Fin 512 → EReal) : EReal :=
  Ideal.div (∑ k : Fin 512, (y k - mean y) * (y k - mean y)) c512

/-- Layer normalisation of a row with scale `g` and shift `b`. -/
def lnRow (g b y : Fin 512 → EReal) : Fin 512 → EReal :=
  fun e => (y e - mean y) * Ideal.rsqrt (var y + eps) * g e + b e

/-- The first stage: `x f + (∑ e, cos (x e + θ e) * W f e + b f)`. -/
def attnRow (θ : Fin 512 → EReal) (W : Fin 512 → Fin 512 → EReal) (b x : Fin 512 → EReal) :
    Fin 512 → EReal :=
  fun f => x f + ((∑ e : Fin 512, Ideal.cos (x e + θ e) * W f e) + b f)

/-- The first eight features of a row. -/
abbrev low (q : Fin 8) : Fin 512 := Fin.castLE (by decide) q

/-- The hidden layer of the second stage, from the first eight features. -/
def hidden (θ : Fin 8 → EReal) (W1 : Fin 2048 → Fin 8 → EReal) (b1 : Fin 2048 → EReal)
    (x : Fin 512 → EReal) : Fin 2048 → EReal :=
  fun f => max ((∑ q : Fin 8, Ideal.cos (x (low q) + θ q) * W1 f q) + b1 f) 0

/-- The same hidden layer written over all 512 features with padded phases and weights. -/
def hiddenPad (θp : Fin 512 → EReal) (W1p : Fin 512 → Fin 2048 → EReal) (b1 : Fin 2048 → EReal)
    (x : Fin 512 → EReal) : Fin 2048 → EReal :=
  fun f => max ((∑ k : Fin 512, Ideal.cos (x k + θp k) * W1p k f) + b1 f) 0

/-- The second stage: the residual plus the second dense layer of a hidden row. -/
def ffnOut (h : Fin 2048 → EReal) (W2 : Fin 512 → Fin 2048 → EReal) (b2 x : Fin 512 → EReal) :
    Fin 512 → EReal :=
  fun e => x e + ((∑ f : Fin 2048, h f * W2 e f) + b2 e)

def ffnRow (θ : Fin 8 → EReal) (W1 : Fin 2048 → Fin 8 → EReal) (b1 : Fin 2048 → EReal)
    (W2 : Fin 512 → Fin 2048 → EReal) (b2 x : Fin 512 → EReal) : Fin 512 → EReal :=
  ffnOut (hidden θ W1 b1 x) W2 b2 x

def ffnRowPad (θp : Fin 512 → EReal) (W1p : Fin 512 → Fin 2048 → EReal) (b1 : Fin 2048 → EReal)
    (W2 : Fin 512 → Fin 2048 → EReal) (b2 x : Fin 512 → EReal) : Fin 512 → EReal :=
  ffnOut (hiddenPad θp W1p b1 x) W2 b2 x

/-- A sum over 512 terms whose terms vanish from the eighth on is the sum of the first eight. -/
theorem sum_low (a : Fin 512 → EReal) (h : ∀ k : Fin 512, 8 ≤ k.val → a k = 0) :
    (∑ k : Fin 512, a k) = ∑ q : Fin 8, a (low q) := by
  have e : (∑ k : Fin 512, a k) = ∑ k : Fin (8 + 504), a (Fin.cast (by decide) k) :=
    (Equiv.sum_comp (finCongr (by decide : 8 + 504 = 512)) a).symm
  rw [e, Fin.sum_univ_add]
  have hz : (∑ j : Fin 504, a (Fin.cast (by decide) (Fin.natAdd 8 j))) = 0 :=
    Finset.sum_eq_zero fun j _ => h _ (by simp)
  rw [hz, add_zero]
  exact Finset.sum_congr rfl fun q _ => congrArg a (Fin.ext rfl)

/-- The padded hidden layer is the short one: beyond the eighth feature every product has a
    zero weight. -/
theorem hiddenPad_eq (θ : Fin 8 → EReal) (W1 : Fin 2048 → Fin 8 → EReal) (b1 : Fin 2048 → EReal)
    (θp : Fin 512 → EReal) (W1p : Fin 512 → Fin 2048 → EReal) (x : Fin 512 → EReal)
    (hθ : ∀ q : Fin 8, θp (low q) = θ q)
    (hW : ∀ (q : Fin 8) (f : Fin 2048), W1p (low q) f = W1 f q)
    (hW0 : ∀ (k : Fin 512) (f : Fin 2048), 8 ≤ k.val → W1p k f = 0) :
    hiddenPad θp W1p b1 x = hidden θ W1 b1 x := by
  funext f
  unfold hiddenPad hidden
  rw [sum_low (fun k => Ideal.cos (x k + θp k) * W1p k f) (fun k hk => by rw [hW0 k f hk, mul_zero])]
  simp only [hθ, hW]

theorem ffnRowPad_eq (θ : Fin 8 → EReal) (W1 : Fin 2048 → Fin 8 → EReal) (b1 : Fin 2048 → EReal)
    (W2 : Fin 512 → Fin 2048 → EReal) (b2 : Fin 512 → EReal)
    (θp : Fin 512 → EReal) (W1p : Fin 512 → Fin 2048 → EReal) (x : Fin 512 → EReal)
    (hθ : ∀ q : Fin 8, θp (low q) = θ q)
    (hW : ∀ (q : Fin 8) (f : Fin 2048), W1p (low q) f = W1 f q)
    (hW0 : ∀ (k : Fin 512) (f : Fin 2048), 8 ≤ k.val → W1p k f = 0) :
    ffnRowPad θp W1p b1 W2 b2 x = ffnRow θ W1 b1 W2 b2 x := by
  unfold ffnRowPad ffnRow
  rw [hiddenPad_eq θ W1 b1 θp W1p x hθ hW hW0]

/-- A feature index as a pair (head, position in the head): `e = 8 * hi e + lo e`. -/
abbrev hi (e : Fin 512) : Fin 64 := ⟨e.val / 8, by have := e.isLt; omega⟩
abbrev lo (e : Fin 512) : Fin 8 := ⟨e.val % 8, Nat.mod_lt _ (by decide)⟩

/-- The whole row function. -/
def rowF (θa : Fin 512 → EReal) (Wc : Fin 512 → Fin 512 → EReal) (bc g1 s1 : Fin 512 → EReal)
    (θf : Fin 8 → EReal) (W1 : Fin 2048 → Fin 8 → EReal) (b1 : Fin 2048 → EReal)
    (W2 : Fin 512 → Fin 2048 → EReal) (b2 g2 s2 x : Fin 512 → EReal) : Fin 512 → EReal :=
  lnRow g2 s2 (ffnRow θf W1 b1 W2 b2 (lnRow g1 s1 (attnRow θa Wc bc x)))

/-- The same with the padded second stage. -/
def rowFPad (θa : Fin 512 → EReal) (Wc : Fin 512 → Fin 512 → EReal) (bc g1 s1 : Fin 512 → EReal)
    (θp : Fin 512 → EReal) (W1p : Fin 512 → Fin 2048 → EReal) (b1 : Fin 2048 → EReal)
    (W2 : Fin 512 → Fin 2048 → EReal) (b2 g2 s2 x : Fin 512 → EReal) : Fin 512 → EReal :=
  lnRow g2 s2 (ffnRowPad θp W1p b1 W2 b2 (lnRow g1 s1 (attnRow θa Wc bc x)))

theorem rowFPad_eq (θa : Fin 512 → EReal) (Wc : Fin 512 → Fin 512 → EReal) (bc g1 s1 : Fin 512 → EReal)
    (θf : Fin 8 → EReal) (W1 : Fin 2048 → Fin 8 → EReal) (b1 : Fin 2048 → EReal)
    (W2 : Fin 512 → Fin 2048 → EReal) (b2 g2 s2 x : Fin 512 → EReal)
    (θp : Fin 512 → EReal) (W1p : Fin 512 → Fin 2048 → EReal)
    (hθ : ∀ q : Fin 8, θp (low q) = θf q)
    (hW : ∀ (q : Fin 8) (f : Fin 2048), W1p (low q) f = W1 f q)
    (hW0 : ∀ (k : Fin 512) (f : Fin 2048), 8 ≤ k.val → W1p k f = 0) :
    rowFPad θa Wc bc g1 s1 θp W1p b1 W2 b2 g2 s2 x = rowF θa Wc bc g1 s1 θf W1 b1 W2 b2 g2 s2 x := by
  unfold rowFPad rowF
  rw [ffnRowPad_eq θf W1 b1 W2 b2 θp W1p _ hθ hW hW0]

/-- The result at batch `b`, position `s`, feature `e`, from the thirteen arguments as functions of
    their coordinates: the row function of the token row `x0 b s`, the first phases read as one
    row of 512 = 64 × 8. -/
def G3 (x0 : Fin 8 → Fin 4096 → Fin 512 → EReal) (x1 : Fin 64 → Fin 8 → EReal)
    (x2 : Fin 512 → Fin 512 → EReal) (x3 x4 x5 : Fin 512 → EReal) (x6 : Fin 8 → EReal)
    (x7 : Fin 2048 → Fin 8 → EReal) (x8 : Fin 2048 → EReal) (x9 : Fin 512 → Fin 2048 → EReal)
    (x10 x11 x12 : Fin 512 → EReal) (b : Fin 8) (s : Fin 4096) (e : Fin 512) : EReal :=
  rowF (fun k => x1 (hi k) (lo k)) x2 x3 x4 x5 x6 x7 x8 x9 x10 x11 x12 (x0 b s) e

end Cert.Spec

end
-- ==== Proof.KBlocks.lean ====
/-
  The kernel body cut into its mathematical stages, each a function of whole blocks (a block is
  512 token rows by 512 features): the first dense stage on `cos (x + θ)` with its residual, the
  row mean, the normalisation core `(y - mean) * rsqrt (var + ε)`, scaling and shifting by a
  row vector, and the two-layer stage with its residual. The generated payload terms are
  compositions of these stages (`pay2_eq` … `pay1_eq`), definitionally.
-/
import proofs.«151062_j65481071402459_1_alg».proof.Proof.Gen.KernelIdeal.Skeleton

noncomputable section

namespace Cert.KernelIdeal.Blk

open Idealize.ShloMosaic Idealize.SL.Sem Cert.KernelIdeal Cert.KernelIdeal.Gen

variable {F : FTy → Type} [FloatOps F]

/-- `x + (cos (x + θ) · Wᵀ + b)` on a block: `v0` the block of rows, `v2` the phases, `v8` the
    transposed weights, `v11` the bias. -/
def attnB (v0 : Vec F S512x512 .f32) (v2 : Vec F S1x512 .f32) (v8 : Vec F S512x512 .bf16) (v11 : Vec F S1x512 .f32) : FVec F S512x512 .f32 :=
  have v1 : FVec F S512x512 .f32 := shapeCast S512x512 v0 shapeCasts_S512x512_S512x512
  have v3 : FVec F S1x512 .f32 := shapeCast S1x512 v2 shapeCasts_S1x512_S1x512
  have v4 : FVec F S512x512 .f32 := broadcastTo S512x512 v3 broadcasts_S1x512_S512x512
  have v5 : FVec F S512x512 .f32 := addf v1 v4
  have v6 : FVec F S512x512 .f32 := cos v5
  have v7 : FVec F S512x512 .bf16 := truncf .bf16 v6 bitsLt_bf16_f32
  have v9 : FVec F S512x512 .bf16 := shapeCast S512x512 v8 shapeCasts_S512x512_S512x512
  have cst : FVec F S512x512 .f32 := constant S512x512 .f32 0x00000000#32
  have v10 : FVec F S512x512 .f32 := matmul dot_S512x512_S512x512_S512x512_1_0_0_1_n_n none v7 v9 cst
  have v12 : FVec F S1x512 .f32 := shapeCast S1x512 v11 shapeCasts_S1x512_S1x512
  have v13 : FVec F S512x512 .f32 := broadcastTo S512x512 v12 broadcasts_S1x512_S512x512
  have v14 : FVec F S512x512 .f32 := addf v10 v13
  addf v1 v14

/-- The row sums of a block divided by 512, as a column. -/
def meanB (y : FVec F S512x512 .f32) : FVec F S512x1 .f32 :=
  divf (shapeCast S512x1 (multiReduction .add [1] S512 y 0x00000000#32 reduces_S512x512_S512 (.inl rfl) rfl) shapeCasts_S512_S512x1)
    (broadcast S512x1 (Scalar.ofBits .f32 0x44000000#32))

/-- A block minus its row means. -/
def centB (y : FVec F S512x512 .f32) : FVec F S512x512 .f32 :=
  subf y (broadcastTo S512x512 (meanB y) broadcasts_S512x1_S512x512)

/-- The reciprocal square root of each row's variance plus the offset, spread over the row. -/
def rstdB (y : FVec F S512x512 .f32) : FVec F S512x512 .f32 :=
  broadcastTo S512x512
    (rsqrt (addf
      (divf (shapeCast S512x1 (multiReduction .add [1] S512 (mulf (centB y) (centB y)) 0x00000000#32 reduces_S512x512_S512 (.inl rfl) rfl) shapeCasts_S512_S512x1)
        (broadcast S512x1 (Scalar.ofBits .f32 0x44000000#32)))
      (broadcast S512x1 (Scalar.ofBits .f32 0x3727C5AC#32))))
    broadcasts_S512x1_S512x512

/-- The normalisation core of a block. -/
def lnCoreB (y : FVec F S512x512 .f32) : FVec F S512x512 .f32 := mulf (centB y) (rstdB y)

/-- A row vector spread over the block's rows. -/
def rowB (g : Vec F S1x512 .f32) : FVec F S512x512 .f32 :=
  broadcastTo S512x512 (shapeCast S1x512 g shapeCasts_S1x512_S1x512) broadcasts_S1x512_S512x512

/-- The two-layer stage with its residual on a block `y`: phases `v42`, first weights `v48`, first
    bias `v51`, second weights `v58`, second bias `v61`. -/
def ffnB (y : FVec F S512x512 .f32) (v42 : Vec F S1x512 .f32) (v48 : Vec F S512x2048 .bf16) (v51 : Vec F S1x2048 .f32) (v58 : Vec F S2048x512 .bf16) (v61 : Vec F S1x512 .f32) : FVec F S512x512 .f32 :=
  have v43 : FVec F S1x512 .f32 := shapeCast S1x512 v42 shapeCasts_S1x512_S1x512
  have v44 : FVec F S512x512 .f32 := broadcastTo S512x512 v43 broadcasts_S1x512_S512x512
  have v45 : FVec F S512x512 .f32 := addf y v44
  have v46 : FVec F S512x512 .f32 := cos v45
  have v47 : FVec F S512x512 .bf16 := truncf .bf16 v46 bitsLt_bf16_f32
  have v49 : FVec F S512x2048 .bf16 := shapeCast S512x2048 v48 shapeCasts_S512x2048_S512x2048
  have cst_20 : FVec F S512x2048 .f32 := constant S512x2048 .f32 0x00000000#32
  have v50 : FVec F S512x2048 .f32 := matmul dot_S512x512_S512x2048_S512x2048_1_0_0_1_n_n none v47 v49 cst_20
  have v52 : FVec F S1x2048 .f32 := shapeCast S1x2048 v51 shapeCasts_S1x2048_S1x2048
  have v53 : FVec F S512x2048 .f32 := broadcastTo S512x2048 v52 broadcasts_S1x2048_S512x2048
  have v54 : FVec F S512x2048 .f32 := addf v50 v53
  have v55 : FVec F S512x2048 .f32 := broadcast S512x2048 (Scalar.ofBits .f32 0x00000000#32)
  have v56 : FVec F S512x2048 .f32 := maximumf v54 v55
  have v57 : FVec F S512x2048 .bf16 := truncf .bf16 v56 bitsLt_bf16_f32
  have v59 : FVec F S2048x512 .bf16 := shapeCast S2048x512 v58 shapeCasts_S2048x512_S2048x512
  have cst_26 : FVec F S512x512 .f32 := constant S512x512 .f32 0x00000000#32
  have v60 : FVec F S512x512 .f32 := matmul dot_S512x2048_S2048x512_S512x512_1_0_0_1_n_n none v57 v59 cst_26
  have v62 : FVec F S1x512 .f32 := shapeCast S1x512 v61 shapeCasts_S1x512_S1x512
  have v63 : FVec F S512x512 .f32 := broadcastTo S512x512 v62 broadcasts_S1x512_S512x512
  have v64 : FVec F S512x512 .f32 := addf v60 v63
  addf y v64

/-! The generated payloads are these stages composed. -/

theorem pay2_eq (v0 : Vec F S512x512 .f32) (v2 : Vec F S1x512 .f32) (v8 : Vec F S512x512 .bf16) (v11 v34 : Vec F S1x512 .f32) :
    k0_pay2 v0 v2 v8 v11 v34 = mulf (lnCoreB (attnB v0 v2 v8 v11)) (rowB v34) := rfl

theorem pay3_eq (v38 : Vec F S1x512 .f32) : k0_pay3 v38 = rowB v38 := rfl

theorem pay4_eq (v37 v40 : FVec F S512x512 .f32) (v42 : Vec F S1x512 .f32) (v48 : Vec F S512x2048 .bf16) (v51 : Vec F S1x2048 .f32) (v58 : Vec F S2048x512 .bf16) (v61 : Vec F S1x512 .f32) :
    k0_pay4 v37 v40 v42 v48 v51 v58 v61 = ffnB (addf v37 v40) v42 v48 v51 v58 v61 := rfl

theorem pay6_eq (v37 v40 : FVec F S512x512 .f32) (v42 : Vec F S1x512 .f32) (v48 : Vec F S512x2048 .bf16) (v51 : Vec F S1x2048 .f32) (v58 : Vec F S2048x512 .bf16) (v61 : Vec F S1x512 .f32) :
    k0_pay6 v37 v40 v42 v48 v51 v58 v61 = centB (k0_pay4 v37 v40 v42 v48 v51 v58 v61) := rfl

theorem pay7_eq (v37 v40 : FVec F S512x512 .f32) (v42 : Vec F S1x512 .f32) (v48 : Vec F S512x2048 .bf16) (v51 : Vec F S1x2048 .f32) (v58 : Vec F S2048x512 .bf16) (v61 : Vec F S1x512 .f32) :
    k0_pay7 v37 v40 v42 v48 v51 v58 v61 = rstdB (k0_pay4 v37 v40 v42 v48 v51 v58 v61) := rfl

theorem pay1_eq (v78 v82 : FVec F S512x512 .f32) (v84 v88 : Vec F S1x512 .f32) :
    k0_pay1 v78 v82 v84 v88 = addf (mulf (mulf v78 v82) (rowB v84)) (rowB v88) := rfl

end Cert.KernelIdeal.Blk

end
-- ==== Proof.KLn.lean ====
/-
  Layer normalisation on a block, read at a row `p` and a feature `e`: the row mean, the centred
  block, the reciprocal standard deviation and a row vector spread over the rows, each as the
  corresponding function of the row `fun k => y (ix2 p k)`.
-/
import proofs.«151062_j65481071402459_1_alg».proof.Proof.KBlocks
import proofs.«151062_j65481071402459_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Blk

open Idealize.ShloMosaic Idealize.ShloMosaic.ValueIdx Idealize.SL.Sem Cert.KernelIdeal Cert.KernelIdeal.Gen

/-- A vector `[a]` viewed as a column `[a, 1]` reads, at `(p, u)`, the vector at `p`: both have row-major
    position `p`. -/
private theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` spread over `b` lanes reads, at `(p, c)`, the column at `(p, 0)`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reciprocal square root of a block at an index is that of the entry there. -/
private theorem rsqrt_apply {s : Shape} {φ : FTy} (a : FVec Ideal s φ) (i : s.Idx) :
    rsqrt a i = Ideal.rsqrt (a i) := rfl

/-- The lane sum of a block at row `p` is the sum over `k` of the row's 512 entries `y (p, k)`: the sum over the
    reduced axis's coordinates, the index with `k` inserted on axis 1 of `(p)` being `(p, k)`. -/
private theorem rowSum_apply (y : FVec Ideal S512x512 .f32) (p : Fin 512) :
    multiReduction (F := Ideal) .add [1] S512 y 0x00000000#32 reduces_S512x512_S512 (.inl rfl) rfl (ix1 p)
      = ∑ k : Fin 512, y (ix2 p k) := by
  refine (Ideal.multiReduction_add_single y _ reduces_S512x512_S512 _ _ (ix1 p)).trans ?_
  exact Finset.sum_congr rfl fun k _ =>
    congrArg y (funext fun a => match a with | ⟨0, _⟩ => rfl | ⟨1, _⟩ => rfl)

/-- The row mean: the column form of the lane sum at `(p, 0)` is the row's sum, divided by 512. -/
theorem meanB_apply (y : FVec Ideal S512x512 .f32) (p : Fin 512) :
    meanB (F := Ideal) y (ix2 p (0 : Fin 1)) = Spec.mean (fun k => y (ix2 p k)) := by
  unfold meanB Spec.mean
  rw [divf_apply, broadcast_apply]
  refine congrArg₂ Ideal.div ?_ rfl
  exact (shapeCast_a_a1_apply _ _ p 0).trans (rowSum_apply y p)

/-- The centred block: the entry minus the row mean spread over the row's lanes. -/
theorem centB_apply (y : FVec Ideal S512x512 .f32) (p e : Fin 512) :
    centB (F := Ideal) y (ix2 p e) = y (ix2 p e) - Spec.mean (fun k => y (ix2 p k)) := by
  unfold centB
  rw [subf_apply, broadcastTo_a1_ab_apply, meanB_apply]

/-- The reciprocal standard deviation: the lane sum of the squared centred entries of row `p`, divided by 512,
    plus the offset, under the reciprocal square root, spread over the row's lanes. -/
theorem rstdB_apply (y : FVec Ideal S512x512 .f32) (p e : Fin 512) :
    rstdB (F := Ideal) y (ix2 p e) = Ideal.rsqrt (Spec.var (fun k => y (ix2 p k)) + Spec.eps) := by
  unfold rstdB Spec.var
  rw [broadcastTo_a1_ab_apply, rsqrt_apply, addf_apply, divf_apply, broadcast_apply, broadcast_apply,
    shapeCast_a_a1_apply, rowSum_apply]
  simp only [mulf_apply, centB_apply]
  rfl

/-- A row vector spread over the rows reads its one row at the lane. -/
theorem rowB_apply (g : Vec Ideal S1x512 .f32) (p e : Fin 512) :
    rowB (F := Ideal) g (ix2 p e) = g (ix2 (0 : Fin 1) e) := by
  unfold rowB
  rw [broadcastTo_1b_ab_apply, shapeCast_self]

/-- The normalised, scaled and shifted block at `(p, e)` is `Spec.lnRow` of row `p`. -/
theorem ln_apply (y : FVec Ideal S512x512 .f32) (g b : Vec Ideal S1x512 .f32) (p e : Fin 512) :
    addf (mulf (lnCoreB (F := Ideal) y) (rowB g)) (rowB b) (ix2 p e)
      = Spec.lnRow (fun k => g (ix2 (0 : Fin 1) k)) (fun k => b (ix2 (0 : Fin 1) k)) (fun k => y (ix2 p k)) e := by
  unfold lnCoreB Spec.lnRow
  rw [addf_apply, mulf_apply, mulf_apply, centB_apply, rstdB_apply, rowB_apply, rowB_apply]

end Cert.KernelIdeal.Blk

end
-- ==== Proof.KAttn.lean ====
/-
  The first stage on a block, read at a row `p` and a feature `f`: the residual plus the dense
  layer on `cos (x + θ)`, the matrix product a sum over the 512 input features.
-/
import proofs.«151062_j65481071402459_1_alg».proof.Proof.KBlocks
import proofs.«151062_j65481071402459_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Blk

open Idealize.ShloMosaic Idealize.ShloMosaic.ValueIdx Idealize.SL.Sem Cert.KernelIdeal Cert.KernelIdeal.Gen

/-! The product's index maps at an output index `i` and a contraction position `q`: the left
    operand is read at (row of `i`, `q`), the right operand at (`q`, column of `i`). -/

/-- The left index keeps the output's row. -/
theorem lhs_attn_0 (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
/-- The left index's column is the contraction position. -/
theorem lhs_attn_1 (i : S512x512.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q
/-- The right index's row is the contraction position. -/
theorem rhs_attn_0 (i : S512x512.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q
/-- The right index keeps the output's column. -/
theorem rhs_attn_1 (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- The first stage at row `p`, feature `f`: `x p f + (∑ k, cos (x p k + θ k) * W k f + b f)`. The
    casts to the same shape are identities, the row vectors `θ` and `b` are read at their one row,
    the product into the zero block is the sum over the contraction index, re-indexed by its one
    coordinate `k : Fin 512`, and rounding to the narrower type is the identity on ideal values. -/
theorem attnB_apply (x0 : Vec Ideal S512x512 .f32) (x1 : Vec Ideal S1x512 .f32) (x2 : Vec Ideal S512x512 .bf16)
    (x3 : Vec Ideal S1x512 .f32) (p f : Fin 512) :
    attnB (F := Ideal) x0 x1 x2 x3 (ix2 p f)
      = Spec.attnRow (fun e => x1 (ix2 (0 : Fin 1) e)) (fun f e => x2 (ix2 e f)) (fun f => x3 (ix2 (0 : Fin 1) f))
          (fun e => x0 (ix2 p e)) f := by
  unfold attnB Spec.attnRow
  simp only [shapeCast_self]
  rw [addf_apply, addf_apply, broadcastTo_1b_ab_apply]
  refine congrArg (fun t => x0 (ix2 p f) + (t + x3 (ix2 (0 : Fin 1) f))) ?_
  simp only [matmul]
  -- the product read at (p, f) as a sum over the contraction index, then over k : Fin 512
  rw [Ideal.matmul_constant_zero_apply,
    ← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  -- the left operand is read at (p, k), the right operand at (k, f)
  have el : dot_S512x512_S512x512_S512x512_1_0_0_1_n_n.lhsIdx (ix2 p f)
      ((contrEquiv1 dot_S512x512_S512x512_S512x512_1_0_0_1_n_n 512 rfl rfl).symm k) = ix2 p k :=
    funext fun a => Fin.ext (by
      match a with
      | ⟨0, _⟩ => exact lhs_attn_0 _ _
      | ⟨1, _⟩ => exact (lhs_attn_1 _ _).trans hk)
  have er : dot_S512x512_S512x512_S512x512_1_0_0_1_n_n.rhsIdx (ix2 p f)
      ((contrEquiv1 dot_S512x512_S512x512_S512x512_1_0_0_1_n_n 512 rfl rfl).symm k) = ix2 k f :=
    funext fun a => Fin.ext (by
      match a with
      | ⟨0, _⟩ => exact (rhs_attn_0 _ _).trans hk
      | ⟨1, _⟩ => exact rhs_attn_1 _ _)
  rw [el, er, truncf_apply]
  -- the left factor: cos of the sum x p k + θ k
  have h : (addf (F := Ideal) (φ := .f32) x0 (broadcastTo S512x512 x1 broadcasts_S1x512_S512x512) (ix2 p k) : EReal)
      = x0 (ix2 p k) + x1 (ix2 (0 : Fin 1) k) := by
    rw [addf_apply, broadcastTo_1b_ab_apply]
  exact congrArg (fun t : EReal => Ideal.cos t * x2 (ix2 k f)) h

end Cert.KernelIdeal.Blk

end
-- ==== Proof.KFfn.lean ====
/-
  The two-layer stage on a block, read at a row `p` and a feature `e`: both matrix products as
  sums (over the 512 padded input features, then over the 2048 hidden features), the maximum with
  zero in between, and the residual.
-/
import proofs.«151062_j65481071402459_1_alg».proof.Proof.KBlocks
import proofs.«151062_j65481071402459_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Blk

open Idealize.ShloMosaic Idealize.ShloMosaic.ValueIdx Idealize.SL.Sem Cert.KernelIdeal Cert.KernelIdeal.Gen

/-! ### The first product's operand indices: at result index `i` and contraction position `q`, the left
    operand is read at row `i 0`, column `q`, the right at row `q`, column `i 1`. -/

theorem ffn_lhs1_0 (i : S512x2048.Idx) (q : dot_S512x512_S512x2048_S512x2048_1_0_0_1_n_n.contr.Idx) :
    (dot_S512x512_S512x2048_S512x2048_1_0_0_1_n_n.lhsIdx i q 0).val = (i 0).val := by
  unfold DotDims.lhsIdx
  rw [dif_neg (show ¬(0 : Fin S512x512.rank) ∈ dot_S512x512_S512x2048_S512x2048_1_0_0_1_n_n.lhsBatch by decide), dif_pos (show (0 : Fin S512x512.rank) ∈ dot_S512x512_S512x2048_S512x2048_1_0_0_1_n_n.lhsNonContracting by decide)]
  rfl
theorem ffn_lhs1_1 (i : S512x2048.Idx) (q : dot_S512x512_S512x2048_S512x2048_1_0_0_1_n_n.contr.Idx) :
    (dot_S512x512_S512x2048_S512x2048_1_0_0_1_n_n.lhsIdx i q 1).val = (q ⟨0, by decide⟩).val :=
  dot_S512x512_S512x2048_S512x2048_1_0_0_1_n_n.lhsIdx_val_of_single rfl i q
theorem ffn_rhs1_0 (i : S512x2048.Idx) (q : dot_S512x512_S512x2048_S512x2048_1_0_0_1_n_n.contr.Idx) :
    (dot_S512x512_S512x2048_S512x2048_1_0_0_1_n_n.rhsIdx i q 0).val = (q ⟨0, by decide⟩).val :=
  dot_S512x512_S512x2048_S512x2048_1_0_0_1_n_n.rhsIdx_val_of_single rfl i q
theorem ffn_rhs1_1 (i : S512x2048.Idx) (q : dot_S512x512_S512x2048_S512x2048_1_0_0_1_n_n.contr.Idx) :
    (dot_S512x512_S512x2048_S512x2048_1_0_0_1_n_n.rhsIdx i q 1).val = (i 1).val := by
  unfold DotDims.rhsIdx
  rw [dif_neg (show ¬(1 : Fin S512x2048.rank) ∈ dot_S512x512_S512x2048_S512x2048_1_0_0_1_n_n.rhsBatch by decide), dif_pos (show (1 : Fin S512x2048.rank) ∈ dot_S512x512_S512x2048_S512x2048_1_0_0_1_n_n.rhsNonContracting by decide)]
  rfl

/-- The first product into the zero block, at row `p` and hidden feature `f`: the sum over the 512 input
    features `k` of the left operand at `(p, k)` times the right at `(k, f)`. -/
theorem ffn_matmul1_apply (a : FVec Ideal S512x512 .bf16) (b : FVec Ideal S512x2048 .bf16) (p : Fin 512) (f : Fin 2048) :
    matmul dot_S512x512_S512x2048_S512x2048_1_0_0_1_n_n none a b (constant (F := Ideal) S512x2048 .f32 0x00000000#32) (ix2 p f)
      = ∑ k : Fin 512, a (ix2 p k) * b (ix2 k f) := by
  simp only [matmul]
  rw [Ideal.matmul_constant_zero_apply, ← Equiv.sum_comp (contrEquiv1 dot_S512x512_S512x2048_S512x2048_1_0_0_1_n_n 512 rfl rfl).symm]
  refine Finset.sum_congr rfl fun k _ => ?_
  have hk := contrEquiv1_symm_val dot_S512x512_S512x2048_S512x2048_1_0_0_1_n_n 512 rfl rfl k
  have el : dot_S512x512_S512x2048_S512x2048_1_0_0_1_n_n.lhsIdx (ix2 p f) ((contrEquiv1 dot_S512x512_S512x2048_S512x2048_1_0_0_1_n_n 512 rfl rfl).symm k) = ix2 p k := funext fun a => Fin.ext (by
    match a with
    | ⟨0, _⟩ => exact ffn_lhs1_0 _ _
    | ⟨1, _⟩ => exact (ffn_lhs1_1 _ _).trans hk)
  have er : dot_S512x512_S512x2048_S512x2048_1_0_0_1_n_n.rhsIdx (ix2 p f) ((contrEquiv1 dot_S512x512_S512x2048_S512x2048_1_0_0_1_n_n 512 rfl rfl).symm k) = ix2 k f := funext fun a => Fin.ext (by
    match a with
    | ⟨0, _⟩ => exact (ffn_rhs1_0 _ _).trans hk
    | ⟨1, _⟩ => exact ffn_rhs1_1 _ _)
  rw [el, er]

/-! ### The second product's operand indices: at result index `i` and contraction position `q`, the left
    operand is read at row `i 0`, column `q`, the right at row `q`, column `i 1`. -/

theorem ffn_lhs2_0 (i : S512x512.Idx) (q : dot_S512x2048_S2048x512_S512x512_1_0_0_1_n_n.contr.Idx) :
    (dot_S512x2048_S2048x512_S512x512_1_0_0_1_n_n.lhsIdx i q 0).val = (i 0).val := by
  unfold DotDims.lhsIdx
  rw [dif_neg (show ¬(0 : Fin S512x2048.rank) ∈ dot_S512x2048_S2048x512_S512x512_1_0_0_1_n_n.lhsBatch by decide), dif_pos (show (0 : Fin S512x2048.rank) ∈ dot_S512x2048_S2048x512_S512x512_1_0_0_1_n_n.lhsNonContracting by decide)]
  rfl
theorem ffn_lhs2_1 (i : S512x512.Idx) (q : dot_S512x2048_S2048x512_S512x512_1_0_0_1_n_n.contr.Idx) :
    (dot_S512x2048_S2048x512_S512x512_1_0_0_1_n_n.lhsIdx i q 1).val = (q ⟨0, by decide⟩).val :=
  dot_S512x2048_S2048x512_S512x512_1_0_0_1_n_n.lhsIdx_val_of_single rfl i q
theorem ffn_rhs2_0 (i : S512x512.Idx) (q : dot_S512x2048_S2048x512_S512x512_1_0_0_1_n_n.contr.Idx) :
    (dot_S512x2048_S2048x512_S512x512_1_0_0_1_n_n.rhsIdx i q 0).val = (q ⟨0, by decide⟩).val :=
  dot_S512x2048_S2048x512_S512x512_1_0_0_1_n_n.rhsIdx_val_of_single rfl i q
theorem ffn_rhs2_1 (i : S512x512.Idx) (q : dot_S512x2048_S2048x512_S512x512_1_0_0_1_n_n.contr.Idx) :
    (dot_S512x2048_S2048x512_S512x512_1_0_0_1_n_n.rhsIdx i q 1).val = (i 1).val := by
  unfold DotDims.rhsIdx
  rw [dif_neg (show ¬(1 : Fin S2048x512.rank) ∈ dot_S512x2048_S2048x512_S512x512_1_0_0_1_n_n.rhsBatch by decide), dif_pos (show (1 : Fin S2048x512.rank) ∈ dot_S512x2048_S2048x512_S512x512_1_0_0_1_n_n.rhsNonContracting by decide)]
  rfl

/-- The second product into the zero block, at row `p` and output feature `e`: the sum over the 2048 hidden
    features `k` of the left operand at `(p, k)` times the right at `(k, e)`. -/
theorem ffn_matmul2_apply (a : FVec Ideal S512x2048 .bf16) (b : FVec Ideal S2048x512 .bf16) (p : Fin 512) (f : Fin 512) :
    matmul dot_S512x2048_S2048x512_S512x512_1_0_0_1_n_n none a b (constant (F := Ideal) S512x512 .f32 0x00000000#32) (ix2 p f)
      = ∑ k : Fin 2048, a (ix2 p k) * b (ix2 k f) := by
  simp only [matmul]
  rw [Ideal.matmul_constant_zero_apply, ← Equiv.sum_comp (contrEquiv1 dot_S512x2048_S2048x512_S512x512_1_0_0_1_n_n 2048 rfl rfl).symm]
  refine Finset.sum_congr rfl fun k _ => ?_
  have hk := contrEquiv1_symm_val dot_S512x2048_S2048x512_S512x512_1_0_0_1_n_n 2048 rfl rfl k
  have el : dot_S512x2048_S2048x512_S512x512_1_0_0_1_n_n.lhsIdx (ix2 p f) ((contrEquiv1 dot_S512x2048_S2048x512_S512x512_1_0_0_1_n_n 2048 rfl rfl).symm k) = ix2 p k := funext fun a => Fin.ext (by
    match a with
    | ⟨0, _⟩ => exact ffn_lhs2_0 _ _
    | ⟨1, _⟩ => exact (ffn_lhs2_1 _ _).trans hk)
  have er : dot_S512x2048_S2048x512_S512x512_1_0_0_1_n_n.rhsIdx (ix2 p f) ((contrEquiv1 dot_S512x2048_S2048x512_S512x512_1_0_0_1_n_n 2048 rfl rfl).symm k) = ix2 k f := funext fun a => Fin.ext (by
    match a with
    | ⟨0, _⟩ => exact (ffn_rhs2_0 _ _).trans hk
    | ⟨1, _⟩ => exact ffn_rhs2_1 _ _)
  rw [el, er]

/-- The hidden layer at row `p` and hidden feature `f`: the sum over the 512 input features `k` of
    `cos (y (p, k) + θ k) * W1 (k, f)`, plus the bias at `f`, and the maximum with zero. -/
theorem ffn_hidden_apply (y : FVec Ideal S512x512 .f32) (x6 : Vec Ideal S1x512 .f32) (x7 : Vec Ideal S512x2048 .bf16)
    (x8 : Vec Ideal S1x2048 .f32) (p : Fin 512) (f : Fin 2048) :
    (maximumf
      (addf
        (matmul dot_S512x512_S512x2048_S512x2048_1_0_0_1_n_n none
          (truncf .bf16 (cos (addf y (broadcastTo S512x512 (shapeCast S1x512 x6 shapeCasts_S1x512_S1x512 : FVec Ideal S1x512 .f32) broadcasts_S1x512_S512x512))) bitsLt_bf16_f32)
          (shapeCast S512x2048 x7 shapeCasts_S512x2048_S512x2048 : FVec Ideal S512x2048 .bf16) (constant S512x2048 .f32 0x00000000#32))
        (broadcastTo S512x2048 (shapeCast S1x2048 x8 shapeCasts_S1x2048_S1x2048 : FVec Ideal S1x2048 .f32) broadcasts_S1x2048_S512x2048))
      (broadcast S512x2048 (Scalar.ofBits .f32 0x00000000#32)) : FVec Ideal S512x2048 .f32) (ix2 p f)
      = Spec.hiddenPad (fun k => x6 (ix2 (0 : Fin 1) k)) (fun k f => x7 (ix2 k f)) (fun f => x8 (ix2 (0 : Fin 1) f))
          (fun k => y (ix2 p k)) f := by
  unfold Spec.hiddenPad
  rw [maximumf_apply, addf_apply, ffn_matmul1_apply, broadcast_apply, broadcastTo_1b_ab_apply]
  simp only [shapeCast_self, truncf_apply]
  refine congrArg₂ max (congrArg (· + x8 (ix2 (0 : Fin 1) f)) (Finset.sum_congr rfl fun k _ => ?_)) Ideal.ofBits_zero_f32
  show FloatOps.cos (y (ix2 p k) + broadcastTo S512x512 x6 broadcasts_S1x512_S512x512 (ix2 p k)) * x7 (ix2 k f) = _
  rw [broadcastTo_1b_ab_apply, Ideal.cos_def]

/-- The second layer and the residual at row `p` and feature `e`, for any hidden block `h`: the block at `(p, e)` plus
    the sum over the 2048 hidden features `f` of `h (p, f) * W2 (f, e)`, plus the bias at `e`. -/
theorem ffn_out_apply (y : FVec Ideal S512x512 .f32) (h : FVec Ideal S512x2048 .f32) (x9 : Vec Ideal S2048x512 .bf16)
    (x10 : Vec Ideal S1x512 .f32) (p e : Fin 512) :
    (addf y
      (addf
        (matmul dot_S512x2048_S2048x512_S512x512_1_0_0_1_n_n none (truncf .bf16 h bitsLt_bf16_f32)
          (shapeCast S2048x512 x9 shapeCasts_S2048x512_S2048x512 : FVec Ideal S2048x512 .bf16) (constant S512x512 .f32 0x00000000#32))
        (broadcastTo S512x512 (shapeCast S1x512 x10 shapeCasts_S1x512_S1x512 : FVec Ideal S1x512 .f32) broadcasts_S1x512_S512x512))
      : FVec Ideal S512x512 .f32) (ix2 p e)
      = Spec.ffnOut (fun f => h (ix2 p f)) (fun e f => x9 (ix2 f e)) (fun e => x10 (ix2 (0 : Fin 1) e))
          (fun k => y (ix2 p k)) e := by
  unfold Spec.ffnOut
  rw [addf_apply, addf_apply, ffn_matmul2_apply, broadcastTo_1b_ab_apply]
  simp only [shapeCast_self, truncf_apply]

/-- The two-layer stage at row `p` and feature `e`: the second layer and residual of the hidden row of `p`. -/
theorem ffnB_apply (y : FVec Ideal S512x512 .f32) (x6 : Vec Ideal S1x512 .f32) (x7 : Vec Ideal S512x2048 .bf16)
    (x8 : Vec Ideal S1x2048 .f32) (x9 : Vec Ideal S2048x512 .bf16) (x10 : Vec Ideal S1x512 .f32) (p e : Fin 512) :
    ffnB (F := Ideal) y x6 x7 x8 x9 x10 (ix2 p e)
      = Spec.ffnRowPad (fun k => x6 (ix2 (0 : Fin 1) k)) (fun k f => x7 (ix2 k f)) (fun f => x8 (ix2 (0 : Fin 1) f))
          (fun e f => x9 (ix2 f e)) (fun e => x10 (ix2 (0 : Fin 1) e)) (fun k => y (ix2 p k)) e := by
  unfold ffnB Spec.ffnRowPad
  refine (ffn_out_apply y _ x9 x10 p e).trans ?_
  exact congrArg (fun h => Spec.ffnOut h (fun e f => x9 (ix2 f e)) (fun e => x10 (ix2 (0 : Fin 1) e)) (fun k => y (ix2 p k)) e)
    (funext fun f => ffn_hidden_apply y x6 x7 x8 p f)

end Cert.KernelIdeal.Blk

end
-- ==== Proof.KOut.lean ====
/-
  What the kernel body leaves in the output block, read at a row `p` and a feature `q`: the row
  function with the padded second stage, applied to row `p` of the token block, the parameters
  read off the parameter blocks. Each stage of the body is a function of whole rows, so the
  block's row `p` after a stage is that stage's row function of row `p` before it.
-/
import proofs.«151062_j65481071402459_1_alg».proof.Proof.Gen.KernelIdeal.Frame
import proofs.«151062_j65481071402459_1_alg».proof.Proof.KBlocks
import proofs.«151062_j65481071402459_1_alg».proof.Proof.KLn
import proofs.«151062_j65481071402459_1_alg».proof.Proof.KAttn
import proofs.«151062_j65481071402459_1_alg».proof.Proof.KFfn
import proofs.«151062_j65481071402459_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Blk

open Idealize.ShloMosaic Idealize.ShloMosaic.ValueIdx Idealize.SL.Sem Cert.KernelIdeal Cert.KernelIdeal.Gen

theorem hz : (![0, 0] : Fin 2 → Nat) = fun _ => 0 := funext fun a => by fin_cases a <;> rfl

/-- The stored block as the stages composed: the loads through whole rectangles read the blocks. -/
theorem out_eq (x0 : Vec Ideal S512x512 .f32) (x1 : Vec Ideal S1x512 .f32) (x2 : Vec Ideal S512x512 .bf16)
    (x3 x4 x5 x6 : Vec Ideal S1x512 .f32) (x7 : Vec Ideal S512x2048 .bf16) (x8 : Vec Ideal S1x2048 .f32)
    (x9 : Vec Ideal S2048x512 .bf16) (x10 x11 x12 : Vec Ideal S1x512 .f32) :
    out0_13 (F := Ideal) x0 x1 x2 x3 x4 x5 x6 x7 x8 x9 x10 x11 x12
      = addf (mulf (lnCoreB (ffnB (addf (mulf (lnCoreB (attnB x0 x1 x2 x3)) (rowB x4)) (rowB x5)) x6 x7 x8 x9 x10)) (rowB x11)) (rowB x12) := by
  unfold out0_13
  rw [View.canon_unit_zero hz]
  simp only [View.ld_unit_zero (S := S512x512) hz, View.ld_unit_zero (S := S1x512) hz, View.ld_unit_zero (S := S512x2048) hz,
    View.ld_unit_zero (S := S1x2048) hz, View.ld_unit_zero (S := S2048x512) hz]
  rw [pay1_eq, pay6_eq, pay7_eq, pay4_eq, pay2_eq, pay3_eq]
  rfl

theorem out_apply (x0 : Vec Ideal S512x512 .f32) (x1 : Vec Ideal S1x512 .f32) (x2 : Vec Ideal S512x512 .bf16)
    (x3 x4 x5 x6 : Vec Ideal S1x512 .f32) (x7 : Vec Ideal S512x2048 .bf16) (x8 : Vec Ideal S1x2048 .f32)
    (x9 : Vec Ideal S2048x512 .bf16) (x10 x11 x12 : Vec Ideal S1x512 .f32) (p q : Fin 512) :
    out0_13 (F := Ideal) x0 x1 x2 x3 x4 x5 x6 x7 x8 x9 x10 x11 x12 (ix2 p q)
      = Spec.rowFPad (fun e => x1 (ix2 (0 : Fin 1) e)) (fun f e => x2 (ix2 e f)) (fun f => x3 (ix2 (0 : Fin 1) f))
          (fun e => x4 (ix2 (0 : Fin 1) e)) (fun e => x5 (ix2 (0 : Fin 1) e))
          (fun k => x6 (ix2 (0 : Fin 1) k)) (fun k f => x7 (ix2 k f)) (fun f => x8 (ix2 (0 : Fin 1) f))
          (fun e f => x9 (ix2 f e)) (fun e => x10 (ix2 (0 : Fin 1) e))
          (fun e => x11 (ix2 (0 : Fin 1) e)) (fun e => x12 (ix2 (0 : Fin 1) e)) (fun e => x0 (ix2 p e)) q := by
  rw [out_eq, ln_apply]
  unfold Spec.rowFPad
  refine congrArg (fun r => Spec.lnRow _ _ r q) (funext fun k => ?_)
  rw [ffnB_apply]
  refine congrArg (fun r => Spec.ffnRowPad _ _ _ _ _ r k) (funext fun k' => ?_)
  rw [ln_apply]
  refine congrArg (fun r => Spec.lnRow _ _ r k') (funext fun k'' => ?_)
  rw [attnB_apply]

end Cert.KernelIdeal.Blk

end
-- ==== Proof.HostArrays.lean ====
/-
  What the kernel region finds in each array it reads, at an index, from the program's arguments:
  the token rows flattened (row `r` is batch `r / 4096`, position `r % 4096`), the first phases as
  one row of 512 = 64 × 8, the three weight matrices transposed, the short phase row and the
  first weights padded with zeros from the eighth feature on, and each bias, scale and shift
  vector as a one-row matrix. A change of float format is the identity on the extended reals.
-/
import proofs.«151062_j65481071402459_1_alg».proof.Proof.Gen.KernelIdeal.Frame
import proofs.«151062_j65481071402459_1_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Run
import Idealize.ShloMosaic.Lib.KernelVsHost

noncomputable section

namespace Cert.KernelIdeal.Host

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ)

/-- The contents at the region's entry are the host operations applied, in order, to the launch memory. -/
local macro "host_fold" : tactic => `(tactic| (
  dsimp only [Gen.V, Gen.V0]
  simp only [Gen.hostOps0, Gen.hostOps0_1, Gen.hostOps0_2, Gen.hostOps0_3, Gen.hostOps0_4, List.flatten_cons, List.flatten_nil, List.append_nil, List.cons_append, List.nil_append]))

/-- Row `r` of the flattened token array is batch `r / 4096`, position `r % 4096`. -/
theorem V_v0 (c : Dev nD) (r : Fin 32768) (e : Fin 512) :
    (V m c main_v0 : S32768x512.Idx → EReal) (ix2 r e)
      = (V m c main_arg0 : S8x4096x512.Idx → EReal) (ix3 (⟨r.val / 4096, by have := r.isLt; omega⟩ : Fin 8) (⟨r.val % 4096, Nat.mod_lt _ (by decide)⟩ : Fin 4096) e) := by
  have h : (V m c main_v0 : S32768x512.Idx → EReal)
      = shapeCast S32768x512 (V m c main_arg0 : S8x4096x512.Idx → EReal) shapeCasts_S8x4096x512_S32768x512 := by
    rw [V_main_arg0]; host_fold; after_results_simp; rfl
  rw [h]
  -- equal row-major positions: (r / 4096 * 4096 + r % 4096) * 512 + e = r * 512 + e
  refine shapeCast_apply (s := S8x4096x512) (t := S32768x512) _ _ _ _ ?_
  rw [Shape.rowMajor_val_three, Shape.rowMajor_val_two]
  show (r.val / 4096 * 4096 + r.val % 4096) * 512 + e.val = r.val * 512 + e.val
  omega

/-- The first phases as one row: feature `e` is head `e / 8`, position `e % 8`. -/
theorem V_v1 (c : Dev nD) (e : Fin 512) :
    (V m c main_v1 : S1x512.Idx → EReal) (ix2 (0 : Fin 1) e) = (V m c main_arg1 : S64x8.Idx → EReal) (ix2 (Spec.hi e) (Spec.lo e)) := by
  have h : (V m c main_v1 : S1x512.Idx → EReal)
      = shapeCast S1x512 (V m c main_arg1 : S64x8.Idx → EReal) shapeCasts_S64x8_S1x512 := by
    rw [V_main_arg1]; host_fold; after_results_simp; rfl
  rw [h]
  -- equal row-major positions: e / 8 * 8 + e % 8 = 0 * 512 + e
  refine shapeCast_apply (s := S64x8) (t := S1x512) _ _ _ _ ?_
  rw [Shape.rowMajor_val_two, Shape.rowMajor_val_two]
  show e.val / 8 * 8 + e.val % 8 = 0 * 512 + e.val
  omega

/-- The first dense layer's weights, transposed. -/
theorem V_v3 (c : Dev nD) (e f : Fin 512) :
    (V m c main_v3 : S512x512.Idx → EReal) (ix2 e f) = (V m c main_arg2 : S512x512.Idx → EReal) (ix2 f e) := by
  have h : (V m c main_v3 : S512x512.Idx → EReal)
      = truncf (F := Ideal) .bf16 (transpose S512x512 [1, 0] (V m c main_arg2 : S512x512.Idx → EReal) transposes_S512x512_S512x512_1_0) bitsLt_bf16_f32 := by
    rw [V_main_arg2]; host_fold; after_results_simp
  rw [h, truncf_apply]
  exact transpose_ix2_apply _ _ _ _

theorem V_v4 (c : Dev nD) (f : Fin 512) :
    (V m c main_v4 : S1x512.Idx → EReal) (ix2 (0 : Fin 1) f) = (V m c main_arg3 : S512.Idx → EReal) (ix1 f) := by
  have e : (V m c main_v4 : S1x512.Idx → EReal)
      = shapeCast S1x512 (V m c main_arg3 : S512.Idx → EReal) shapeCasts_S512_S1x512 := by
    rw [V_main_arg3]; host_fold; after_results_simp; rfl
  rw [e]
  exact shapeCast_a_1a_apply _ _ _ _

theorem V_v5 (c : Dev nD) (f : Fin 512) :
    (V m c main_v5 : S1x512.Idx → EReal) (ix2 (0 : Fin 1) f) = (V m c main_arg4 : S512.Idx → EReal) (ix1 f) := by
  have e : (V m c main_v5 : S1x512.Idx → EReal)
      = shapeCast S1x512 (V m c main_arg4 : S512.Idx → EReal) shapeCasts_S512_S1x512 := by
    rw [V_main_arg4]; host_fold; after_results_simp; rfl
  rw [e]
  exact shapeCast_a_1a_apply _ _ _ _

theorem V_v6 (c : Dev nD) (f : Fin 512) :
    (V m c main_v6 : S1x512.Idx → EReal) (ix2 (0 : Fin 1) f) = (V m c main_arg5 : S512.Idx → EReal) (ix1 f) := by
  have e : (V m c main_v6 : S1x512.Idx → EReal)
      = shapeCast S1x512 (V m c main_arg5 : S512.Idx → EReal) shapeCasts_S512_S1x512 := by
    rw [V_main_arg5]; host_fold; after_results_simp; rfl
  rw [e]
  exact shapeCast_a_1a_apply _ _ _ _

/-- The second phases padded to 512 features: the eight phases, then zeros. -/
theorem V_v8_low (c : Dev nD) (q : Fin 8) :
    (V m c main_v8 : S1x512.Idx → EReal) (ix2 (0 : Fin 1) (Spec.low q)) = (V m c main_arg6 : S8.Idx → EReal) (ix1 q) := by
  have h : (V m c main_v8 : S1x512.Idx → EReal)
      = pad S1x512 ![0, 0] ![0, 504] ![0, 0]
          (shapeCast S1x8 (V m c main_arg6 : S8.Idx → EReal) shapeCasts_S8_S1x8)
          (sitofp (F := Ideal) .f32 (constantI S_ 32 0#32)) pads_S1x8_S1x512_000_05040 h_S_ := by
    rw [V_main_arg6]; host_fold; after_results_simp; rfl
  rw [h]
  -- feature q < 8 lies in the operand's box: no low padding, no interior padding
  refine (pad_apply_of_inside _ _ _ _ _ _ _ _ (ix2 (0 : Fin 1) q) (fun a => match a with
    | ⟨0, _⟩ => by show (0 : Nat) = 0 + 0 * (0 + 1); omega
    | ⟨1, _⟩ => by show q.val = 0 + q.val * (0 + 1); omega)).trans ?_
  exact shapeCast_a_1a_apply _ _ _ _

/-- The hidden layer's weights transposed and padded to 512 input features: the eight rows of weights, -/
theorem V_v11_low (c : Dev nD) (q : Fin 8) (f : Fin 2048) :
    (V m c main_v11 : S512x2048.Idx → EReal) (ix2 (Spec.low q) f) = (V m c main_arg7 : S2048x8.Idx → EReal) (ix2 f q) := by
  have h : (V m c main_v11 : S512x2048.Idx → EReal)
      = truncf (F := Ideal) .bf16 (pad S512x2048 ![0, 0] ![504, 0] ![0, 0]
          (transpose S8x2048 [1, 0] (V m c main_arg7 : S2048x8.Idx → EReal) transposes_S2048x8_S8x2048_1_0)
          (sitofp (F := Ideal) .f32 (constantI S_ 32 0#32)) pads_S8x2048_S512x2048_05040_000 h_S_) bitsLt_bf16_f32 := by
    rw [V_main_arg7]; host_fold; after_results_simp; rfl
  rw [h, truncf_apply]
  -- row q < 8 lies in the operand's box
  refine (pad_apply_of_inside _ _ _ _ _ _ _ _ (ix2 q f) (fun a => match a with
    | ⟨0, _⟩ => by show q.val = 0 + q.val * (0 + 1); omega
    | ⟨1, _⟩ => by show f.val = 0 + f.val * (0 + 1); omega)).trans ?_
  exact transpose_ix2_apply _ _ _ _

/-- then zeros. -/
theorem V_v11_high (c : Dev nD) (k : Fin 512) (f : Fin 2048) (hk : 8 ≤ k.val) :
    (V m c main_v11 : S512x2048.Idx → EReal) (ix2 k f) = (0 : EReal) := by
  have h : (V m c main_v11 : S512x2048.Idx → EReal)
      = truncf (F := Ideal) .bf16 (pad S512x2048 ![0, 0] ![504, 0] ![0, 0]
          (transpose S8x2048 [1, 0] (V m c main_arg7 : S2048x8.Idx → EReal) transposes_S2048x8_S8x2048_1_0)
          (sitofp (F := Ideal) .f32 (constantI S_ 32 0#32)) pads_S8x2048_S512x2048_05040_000 h_S_) bitsLt_bf16_f32 := by
    rw [V_main_arg7]; host_fold; after_results_simp; rfl
  rw [h, truncf_apply]
  -- row k ≥ 8 lies beyond the operand's eight rows: the padding value, the integer zero as a real
  refine (pad_apply_of_not_inside _ _ _ _ _ _ _ (ix2 k f) (0 : Fin 2) (fun hin => ?_)).trans ?_
  · have h3 : (k.val - 0) / (0 + 1) < 8 := hin.2.2
    omega
  · exact sitofp_zero (φ := .f32)

theorem V_v12 (c : Dev nD) (f : Fin 2048) :
    (V m c main_v12 : S1x2048.Idx → EReal) (ix2 (0 : Fin 1) f) = (V m c main_arg8 : S2048.Idx → EReal) (ix1 f) := by
  have e : (V m c main_v12 : S1x2048.Idx → EReal)
      = shapeCast S1x2048 (V m c main_arg8 : S2048.Idx → EReal) shapeCasts_S2048_S1x2048 := by
    rw [V_main_arg8]; host_fold; after_results_simp; rfl
  rw [e]
  exact shapeCast_a_1a_apply _ _ _ _

/-- The second dense layer's weights, transposed. -/
theorem V_v14 (c : Dev nD) (f : Fin 2048) (e : Fin 512) :
    (V m c main_v14 : S2048x512.Idx → EReal) (ix2 f e) = (V m c main_arg9 : S512x2048.Idx → EReal) (ix2 e f) := by
  have h : (V m c main_v14 : S2048x512.Idx → EReal)
      = truncf (F := Ideal) .bf16 (transpose S2048x512 [1, 0] (V m c main_arg9 : S512x2048.Idx → EReal) transposes_S512x2048_S2048x512_1_0) bitsLt_bf16_f32 := by
    rw [V_main_arg9]; host_fold; after_results_simp
  rw [h, truncf_apply]
  exact transpose_ix2_apply _ _ _ _

theorem V_v15 (c : Dev nD) (f : Fin 512) :
    (V m c main_v15 : S1x512.Idx → EReal) (ix2 (0 : Fin 1) f) = (V m c main_arg10 : S512.Idx → EReal) (ix1 f) := by
  have e : (V m c main_v15 : S1x512.Idx → EReal)
      = shapeCast S1x512 (V m c main_arg10 : S512.Idx → EReal) shapeCasts_S512_S1x512 := by
    rw [V_main_arg10]; host_fold; after_results_simp; rfl
  rw [e]
  exact shapeCast_a_1a_apply _ _ _ _

theorem V_v16 (c : Dev nD) (f : Fin 512) :
    (V m c main_v16 : S1x512.Idx → EReal) (ix2 (0 : Fin 1) f) = (V m c main_arg11 : S512.Idx → EReal) (ix1 f) := by
  have e : (V m c main_v16 : S1x512.Idx → EReal)
      = shapeCast S1x512 (V m c main_arg11 : S512.Idx → EReal) shapeCasts_S512_S1x512 := by
    rw [V_main_arg11]; host_fold; after_results_simp; rfl
  rw [e]
  exact shapeCast_a_1a_apply _ _ _ _

theorem V_v17 (c : Dev nD) (f : Fin 512) :
    (V m c main_v17 : S1x512.Idx → EReal) (ix2 (0 : Fin 1) f) = (V m c main_arg12 : S512.Idx → EReal) (ix1 f) := by
  have e : (V m c main_v17 : S1x512.Idx → EReal)
      = shapeCast S1x512 (V m c main_arg12 : S512.Idx → EReal) shapeCasts_S512_S1x512 := by
    rw [V_main_arg12]; host_fold; after_results_simp; rfl
  rw [e]
  exact shapeCast_a_1a_apply _ _ _ _

end Cert.KernelIdeal.Host

end
-- ==== Proof.KValue.lean ====
/-
  The kernel's whole result array, from its blocks.

  Grid point `t` of 64 reads rows `512 t … 512 t + 511` of the flattened token array and the whole
  of each parameter array, and writes the same rows of the flattened result. Each result row is
  the padded row function of the corresponding token row (the block lemma), the parameter arrays
  are the program's arguments re-laid (flattened, transposed, padded with zeros), and the padded
  second stage is the short one because the padding weights are zero. So the flattened result at
  row `r`, feature `e` is `Spec.G3` of the arguments at batch `r / 4096`, position `r % 4096`,
  feature `e`; the 64 blocks of 512 rows cover the 32768 rows; and the final reshape reads row
  `4096 b + s` at `(b, s)`.
-/
import proofs.«151062_j65481071402459_1_alg».proof.Proof.Gen.KernelIdeal.Frame
import proofs.«151062_j65481071402459_1_alg».proof.Proof.KOut
import proofs.«151062_j65481071402459_1_alg».proof.Proof.HostArrays
import proofs.«151062_j65481071402459_1_alg».proof.Proof.Spec
import Idealize.ShloMosaic.Lib.ValueIdx
import Idealize.ShloMosaic.Lib.Pipeline.Value
import Idealize.ShloMosaic.Lib.StableHlo.Run
import Idealize.ShloMosaic.Lib.Tactic

noncomputable section

namespace Cert.KernelIdeal.Whole

open Idealize.ShloMosaic Idealize.ShloMosaic.TcCoe Idealize.ShloMosaic.ValueIdx Idealize.SL.Sem Cert.KernelIdeal Cert.KernelIdeal.Gen
open Idealize.ShloMosaic.Pipeline (Dat)

variable (m : (ℓ : Loc nD τ sig) → Buf (Elt Ideal) ℓ) (ρ : Dev nD → PrngReg)

/-! ## The block index maps over the grid -/

set_option maxRecDepth 16384 in
/-- The token and result windows move one block of rows per grid point; every parameter window
    stays at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0
    ∧ win0_13.index t (0 : Fin 2) = t.val ∧ win0_13.index t (1 : Fin 2) = 0 :=
  (by decide +kernel : ∀ t : Fin grid0.N, _)

/-! ## Each input block, read off the array the region finds -/

/-- Row `p` of the token block at point `t` is row `512 t + p` of the flattened token array. -/
theorem blk0 (c : Dev nD) (t : Fin cfg0.N) (p e : Fin 512) (r : Fin 32768) (hr : r.val = t.val * 512 + p.val) :
    (iblk m c 0 t : Vec Ideal S512x512 .f32) (ix2 p e) = (V m c main_v0 : S32768x512.Idx → EReal) (ix2 r e) := by
  obtain ⟨i0a, i0b, -⟩ := idx_facts t
  unfold iblk
  rw [View.read_apply]
  show V m c main_v0 _ = V m c main_v0 _
  congr 1
  funext a
  apply Fin.ext
  match a with
  | ⟨0, _⟩ => show win0_0.index t (0 : Fin 2) * 512 + 1 * p.val = r.val; rw [i0a, hr]; omega
  | ⟨1, _⟩ => show win0_0.index t (1 : Fin 2) * 512 + 1 * e.val = e.val; rw [i0b]; omega

/-- A parameter window's block at block index (0, 0) of an array of the block's own size is the array. -/
theorem blk1 (c : Dev nD) (t : Fin cfg0.N) (y : S1x512.Idx) :
    (iblk m c 1 t : Vec Ideal S1x512 .f32) y = (V m c main_v1 : S1x512.Idx → EReal) y := by
  obtain ⟨-, -, ia, ib, -⟩ := idx_facts t
  unfold iblk
  rw [View.read_apply]
  show V m c main_v1 _ = V m c main_v1 _
  congr 1
  funext a
  apply Fin.ext
  match a with
  | ⟨0, _⟩ => show win0_1.index t (0 : Fin 2) * 1 + 1 * (y 0).val = (y 0).val; rw [ia]; omega
  | ⟨1, _⟩ => show win0_1.index t (1 : Fin 2) * 512 + 1 * (y 1).val = (y 1).val; rw [ib]; omega

theorem blk2 (c : Dev nD) (t : Fin cfg0.N) (y : S512x512.Idx) :
    (iblk m c 2 t : Vec Ideal S512x512 .bf16) y = (V m c main_v3 : S512x512.Idx → EReal) y := by
  obtain ⟨-, -, -, -, ia, ib, -⟩ := idx_facts t
  unfold iblk
  rw [View.read_apply]
  show V m c main_v3 _ = V m c main_v3 _
  congr 1
  funext a
  apply Fin.ext
  match a with
  | ⟨0, _⟩ => show win0_2.index t (0 : Fin 2) * 512 + 1 * (y 0).val = (y 0).val; rw [ia]; omega
  | ⟨1, _⟩ => show win0_2.index t (1 : Fin 2) * 512 + 1 * (y 1).val = (y 1).val; rw [ib]; omega

theorem blk3 (c : Dev nD) (t : Fin cfg0.N) (y : S1x512.Idx) :
    (iblk m c 3 t : Vec Ideal S1x512 .f32) y = (V m c main_v4 : S1x512.Idx → EReal) y := by
  obtain ⟨-, -, -, -, -, -, ia, ib, -⟩ := idx_facts t
  unfold iblk
  rw [View.read_apply]
  show V m c main_v4 _ = V m c main_v4 _
  congr 1
  funext a
  apply Fin.ext
  match a with
  | ⟨0, _⟩ => show win0_3.index t (0 : Fin 2) * 1 + 1 * (y 0).val = (y 0).val; rw [ia]; omega
  | ⟨1, _⟩ => show win0_3.index t (1 : Fin 2) * 512 + 1 * (y 1).val = (y 1).val; rw [ib]; omega

theorem blk4 (c : Dev nD) (t : Fin cfg0.N) (y : S1x512.Idx) :
    (iblk m c 4 t : Vec Ideal S1x512 .f32) y = (V m c main_v5 : S1x512.Idx → EReal) y := by
  obtain ⟨-, -, -, -, -, -, -, -, ia, ib, -⟩ := idx_facts t
  unfold iblk
  rw [View.read_apply]
  show V m c main_v5 _ = V m c main_v5 _
  congr 1
  funext a
  apply Fin.ext
  match a with
  | ⟨0, _⟩ => show win0_4.index t (0 : Fin 2) * 1 + 1 * (y 0).val = (y 0).val; rw [ia]; omega
  | ⟨1, _⟩ => show win0_4.index t (1 : Fin 2) * 512 + 1 * (y 1).val = (y 1).val; rw [ib]; omega

theorem blk5 (c : Dev nD) (t : Fin cfg0.N) (y : S1x512.Idx) :
    (iblk m c 5 t : Vec Ideal S1x512 .f32) y = (V m c main_v6 : S1x512.Idx → EReal) y := by
  obtain ⟨-, -, -, -, -, -, -, -, -, -, ia, ib, -⟩ := idx_facts t
  unfold iblk
  rw [View.read_apply]
  show V m c main_v6 _ = V m c main_v6 _
  congr 1
  funext a
  apply Fin.ext
  match a with
  | ⟨0, _⟩ => show win0_5.index t (0 : Fin 2) * 1 + 1 * (y 0).val = (y 0).val; rw [ia]; omega
  | ⟨1, _⟩ => show win0_5.index t (1 : Fin 2) * 512 + 1 * (y 1).val = (y 1).val; rw [ib]; omega

theorem blk6 (c : Dev nD) (t : Fin cfg0.N) (y : S1x512.Idx) :
    (iblk m c 6 t : Vec Ideal S1x512 .f32) y = (V m c main_v8 : S1x512.Idx → EReal) y := by
  obtain ⟨-, -, -, -, -, -, -, -, -, -, -, -, ia, ib, -⟩ := idx_facts t
  unfold iblk
  rw [View.read_apply]
  show V m c main_v8 _ = V m c main_v8 _
  congr 1
  funext a
  apply Fin.ext
  match a with
  | ⟨0, _⟩ => show win0_6.index t (0 : Fin 2) * 1 + 1 * (y 0).val = (y 0).val; rw [ia]; omega
  | ⟨1, _⟩ => show win0_6.index t (1 : Fin 2) * 512 + 1 * (y 1).val = (y 1).val; rw [ib]; omega

theorem blk7 (c : Dev nD) (t : Fin cfg0.N) (y : S512x2048.Idx) :
    (iblk m c 7 t : Vec Ideal S512x2048 .bf16) y = (V m c main_v11 : S512x2048.Idx → EReal) y := by
  obtain ⟨-, -, -, -, -, -, -, -, -, -, -, -, -, -, ia, ib, -⟩ := idx_facts t
  unfold iblk
  rw [View.read_apply]
  show V m c main_v11 _ = V m c main_v11 _
  congr 1
  funext a
  apply Fin.ext
  match a with
  | ⟨0, _⟩ => show win0_7.index t (0 : Fin 2) * 512 + 1 * (y 0).val = (y 0).val; rw [ia]; omega
  | ⟨1, _⟩ => show win0_7.index t (1 : Fin 2) * 2048 + 1 * (y 1).val = (y 1).val; rw [ib]; omega

theorem blk8 (c : Dev nD) (t : Fin cfg0.N) (y : S1x2048.Idx) :
    (iblk m c 8 t : Vec Ideal S1x2048 .f32) y = (V m c main_v12 : S1x2048.Idx → EReal) y := by
  obtain ⟨-, -, -, -, -, -, -, -, -, -, -, -, -, -, -, -, ia, ib, -⟩ := idx_facts t
  unfold iblk
  rw [View.read_apply]
  show V m c main_v12 _ = V m c main_v12 _
  congr 1
  funext a
  apply Fin.ext
  match a with
  | ⟨0, _⟩ => show win0_8.index t (0 : Fin 2) * 1 + 1 * (y 0).val = (y 0).val; rw [ia]; omega
  | ⟨1, _⟩ => show win0_8.index t (1 : Fin 2) * 2048 + 1 * (y 1).val = (y 1).val; rw [ib]; omega

theorem blk9 (c : Dev nD) (t : Fin cfg0.N) (y : S2048x512.Idx) :
    (iblk m c 9 t : Vec Ideal S2048x512 .bf16) y = (V m c main_v14 : S2048x512.Idx → EReal) y := by
  obtain ⟨-, -, -, -, -, -, -, -, -, -, -, -, -, -, -, -, -, -, ia, ib, -⟩ := idx_facts t
  unfold iblk
  rw [View.read_apply]
  show V m c main_v14 _ = V m c main_v14 _
  congr 1
  funext a
  apply Fin.ext
  match a with
  | ⟨0, _⟩ => show win0_9.index t (0 : Fin 2) * 2048 + 1 * (y 0).val = (y 0).val; rw [ia]; omega
  | ⟨1, _⟩ => show win0_9.index t (1 : Fin 2) * 512 + 1 * (y 1).val = (y 1).val; rw [ib]; omega

theorem blk10 (c : Dev nD) (t : Fin cfg0.N) (y : S1x512.Idx) :
    (iblk m c 10 t : Vec Ideal S1x512 .f32) y = (V m c main_v15 : S1x512.Idx → EReal) y := by
  obtain ⟨-, -, -, -, -, -, -, -, -, -, -, -, -, -, -, -, -, -, -, -, ia, ib, -⟩ := idx_facts t
  unfold iblk
  rw [View.read_apply]
  show V m c main_v15 _ = V m c main_v15 _
  congr 1
  funext a
  apply Fin.ext
  match a with
  | ⟨0, _⟩ => show win0_10.index t (0 : Fin 2) * 1 + 1 * (y 0).val = (y 0).val; rw [ia]; omega
  | ⟨1, _⟩ => show win0_10.index t (1 : Fin 2) * 512 + 1 * (y 1).val = (y 1).val; rw [ib]; omega

theorem blk11 (c : Dev nD) (t : Fin cfg0.N) (y : S1x512.Idx) :
    (iblk m c 11 t : Vec Ideal S1x512 .f32) y = (V m c main_v16 : S1x512.Idx → EReal) y := by
  obtain ⟨-, -, -, -, -, -, -, -, -, -, -, -, -, -, -, -, -, -, -, -, -, -, ia, ib, -⟩ := idx_facts t
  unfold iblk
  rw [View.read_apply]
  show V m c main_v16 _ = V m c main_v16 _
  congr 1
  funext a
  apply Fin.ext
  match a with
  | ⟨0, _⟩ => show win0_11.index t (0 : Fin 2) * 1 + 1 * (y 0).val = (y 0).val; rw [ia]; omega
  | ⟨1, _⟩ => show win0_11.index t (1 : Fin 2) * 512 + 1 * (y 1).val = (y 1).val; rw [ib]; omega

theorem blk12 (c : Dev nD) (t : Fin cfg0.N) (y : S1x512.Idx) :
    (iblk m c 12 t : Vec Ideal S1x512 .f32) y = (V m c main_v17 : S1x512.Idx → EReal) y := by
  obtain ⟨-, -, -, -, -, -, -, -, -, -, -, -, -, -, -, -, -, -, -, -, -, -, -, -, ia, ib, -⟩ := idx_facts t
  unfold iblk
  rw [View.read_apply]
  show V m c main_v17 _ = V m c main_v17 _
  congr 1
  funext a
  apply Fin.ext
  match a with
  | ⟨0, _⟩ => show win0_12.index t (0 : Fin 2) * 1 + 1 * (y 0).val = (y 0).val; rw [ia]; omega
  | ⟨1, _⟩ => show win0_12.index t (1 : Fin 2) * 512 + 1 * (y 1).val = (y 1).val; rw [ib]; omega

/-! ## The result as one function of the arguments -/

/-- `Spec.G3` of the argument arrays as the region finds them, at batch, position, feature. -/
def Gm (c : Dev nD) : Fin 8 → Fin 4096 → Fin 512 → EReal :=
  Spec.G3 (fun b s e => (V m c main_arg0 : S8x4096x512.Idx → EReal) (ix3 b s e))
    (fun h d => (V m c main_arg1 : S64x8.Idx → EReal) (ix2 h d))
    (fun f e => (V m c main_arg2 : S512x512.Idx → EReal) (ix2 f e))
    (fun f => (V m c main_arg3 : S512.Idx → EReal) (ix1 f))
    (fun f => (V m c main_arg4 : S512.Idx → EReal) (ix1 f))
    (fun f => (V m c main_arg5 : S512.Idx → EReal) (ix1 f))
    (fun q => (V m c main_arg6 : S8.Idx → EReal) (ix1 q))
    (fun f q => (V m c main_arg7 : S2048x8.Idx → EReal) (ix2 f q))
    (fun f => (V m c main_arg8 : S2048.Idx → EReal) (ix1 f))
    (fun e f => (V m c main_arg9 : S512x2048.Idx → EReal) (ix2 e f))
    (fun f => (V m c main_arg10 : S512.Idx → EReal) (ix1 f))
    (fun f => (V m c main_arg11 : S512.Idx → EReal) (ix1 f))
    (fun f => (V m c main_arg12 : S512.Idx → EReal) (ix1 f))

/-- The flattened result: row `r` is batch `r / 4096`, position `r % 4096`. -/
def G2 (c : Dev nD) : S32768x512.Idx → EReal := fun i =>
  Gm m c ⟨(i 0).val / 4096, by have := idx2_lt0 i; omega⟩ ⟨(i 0).val % 4096, Nat.mod_lt _ (by decide)⟩ ⟨(i 1).val, idx2_lt1 i⟩

/-- The result in its own shape. -/
def G3d (c : Dev nD) : S8x4096x512.Idx → EReal := fun i =>
  Gm m c ⟨(i 0).val, (i 0).isLt⟩ ⟨(i 1).val, (i 1).isLt⟩ ⟨(i 2).val, (i 2).isLt⟩

/-- No host operation writes an argument: the region finds each as launched, so `Gm` is
    `Spec.G3` of the arguments as launched. -/
theorem Gm_eq (c : Dev nD) :
    Gm m c = Spec.G3 (fun b s e => (m ((c : Thread nD τ).loc main_arg0) : S8x4096x512.Idx → EReal) (ix3 b s e))
        (fun h d => (m ((c : Thread nD τ).loc main_arg1) : S64x8.Idx → EReal) (ix2 h d))
        (fun f e => (m ((c : Thread nD τ).loc main_arg2) : S512x512.Idx → EReal) (ix2 f e))
        (fun f => (m ((c : Thread nD τ).loc main_arg3) : S512.Idx → EReal) (ix1 f))
        (fun f => (m ((c : Thread nD τ).loc main_arg4) : S512.Idx → EReal) (ix1 f))
        (fun f => (m ((c : Thread nD τ).loc main_arg5) : S512.Idx → EReal) (ix1 f))
        (fun q => (m ((c : Thread nD τ).loc main_arg6) : S8.Idx → EReal) (ix1 q))
        (fun f q => (m ((c : Thread nD τ).loc main_arg7) : S2048x8.Idx → EReal) (ix2 f q))
        (fun f => (m ((c : Thread nD τ).loc main_arg8) : S2048.Idx → EReal) (ix1 f))
        (fun e f => (m ((c : Thread nD τ).loc main_arg9) : S512x2048.Idx → EReal) (ix2 e f))
        (fun f => (m ((c : Thread nD τ).loc main_arg10) : S512.Idx → EReal) (ix1 f))
        (fun f => (m ((c : Thread nD τ).loc main_arg11) : S512.Idx → EReal) (ix1 f))
        (fun f => (m ((c : Thread nD τ).loc main_arg12) : S512.Idx → EReal) (ix1 f)) := by
  unfold Gm
  rw [V_main_arg0 m c, V_main_arg1 m c, V_main_arg2 m c, V_main_arg3 m c, V_main_arg4 m c, V_main_arg5 m c, V_main_arg6 m c, V_main_arg7 m c, V_main_arg8 m c, V_main_arg9 m c, V_main_arg10 m c, V_main_arg11 m c, V_main_arg12 m c]

/-- The result at batch `b`, position `s`, feature `e`. -/
theorem G3d_apply (c : Dev nD) (b : Fin 8) (s : Fin 4096) (e : Fin 512) :
    G3d m c (ix3 b s e) = Spec.G3 (fun b s e => (m ((c : Thread nD τ).loc main_arg0) : S8x4096x512.Idx → EReal) (ix3 b s e))
        (fun h d => (m ((c : Thread nD τ).loc main_arg1) : S64x8.Idx → EReal) (ix2 h d))
        (fun f e => (m ((c : Thread nD τ).loc main_arg2) : S512x512.Idx → EReal) (ix2 f e))
        (fun f => (m ((c : Thread nD τ).loc main_arg3) : S512.Idx → EReal) (ix1 f))
        (fun f => (m ((c : Thread nD τ).loc main_arg4) : S512.Idx → EReal) (ix1 f))
        (fun f => (m ((c : Thread nD τ).loc main_arg5) : S512.Idx → EReal) (ix1 f))
        (fun q => (m ((c : Thread nD τ).loc main_arg6) : S8.Idx → EReal) (ix1 q))
        (fun f q => (m ((c : Thread nD τ).loc main_arg7) : S2048x8.Idx → EReal) (ix2 f q))
        (fun f => (m ((c : Thread nD τ).loc main_arg8) : S2048.Idx → EReal) (ix1 f))
        (fun e f => (m ((c : Thread nD τ).loc main_arg9) : S512x2048.Idx → EReal) (ix2 e f))
        (fun f => (m ((c : Thread nD τ).loc main_arg10) : S512.Idx → EReal) (ix1 f))
        (fun f => (m ((c : Thread nD τ).loc main_arg11) : S512.Idx → EReal) (ix1 f))
        (fun f => (m ((c : Thread nD τ).loc main_arg12) : S512.Idx → EReal) (ix1 f)) b s e := by
  show Gm m c b s e = _
  rw [Gm_eq]

/-! ## What a grid point writes -/

/-- Row `p`, feature `q` of the block point `t` stores is the result at flattened row
    `r = 512 t + p`: the block lemma, each parameter block read back to the argument it was
    laid out from, and the padded second stage equal to the short one since the padding
    weights are zero. -/
theorem point_row (c : Dev nD) (t : Fin cfg0.N) (p q : Fin 512) (r : Fin 32768) (hr : r.val = t.val * 512 + p.val) :
    out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 p q)
      = Gm m c ⟨r.val / 4096, by have := r.isLt; omega⟩ ⟨r.val % 4096, Nat.mod_lt _ (by decide)⟩ q := by
  rw [Blk.out_apply]
  unfold Gm Spec.G3
  have e0 : (fun e => (iblk m c 0 t : Vec Ideal S512x512 .f32) (ix2 p e))
      = fun e => (V m c main_arg0 : S8x4096x512.Idx → EReal) (ix3 (⟨r.val / 4096, by have := r.isLt; omega⟩ : Fin 8) (⟨r.val % 4096, Nat.mod_lt _ (by decide)⟩ : Fin 4096) e) :=
    funext fun e => (blk0 m c t p e r hr).trans (Host.V_v0 m c r e)
  have e1 : (fun e => (iblk m c 1 t : Vec Ideal S1x512 .f32) (ix2 (0 : Fin 1) e))
      = fun k => (V m c main_arg1 : S64x8.Idx → EReal) (ix2 (Spec.hi k) (Spec.lo k)) :=
    funext fun e => (blk1 m c t _).trans (Host.V_v1 m c e)
  have e2 : (fun f e => (iblk m c 2 t : Vec Ideal S512x512 .bf16) (ix2 e f))
      = fun f e => (V m c main_arg2 : S512x512.Idx → EReal) (ix2 f e) :=
    funext fun f => funext fun e => (blk2 m c t _).trans (Host.V_v3 m c e f)
  have e3 : (fun f => (iblk m c 3 t : Vec Ideal S1x512 .f32) (ix2 (0 : Fin 1) f))
      = fun f => (V m c main_arg3 : S512.Idx → EReal) (ix1 f) :=
    funext fun f => (blk3 m c t _).trans (Host.V_v4 m c f)
  have e4 : (fun f => (iblk m c 4 t : Vec Ideal S1x512 .f32) (ix2 (0 : Fin 1) f))
      = fun f => (V m c main_arg4 : S512.Idx → EReal) (ix1 f) :=
    funext fun f => (blk4 m c t _).trans (Host.V_v5 m c f)
  have e5 : (fun f => (iblk m c 5 t : Vec Ideal S1x512 .f32) (ix2 (0 : Fin 1) f))
      = fun f => (V m c main_arg5 : S512.Idx → EReal) (ix1 f) :=
    funext fun f => (blk5 m c t _).trans (Host.V_v6 m c f)
  have e8 : (fun f => (iblk m c 8 t : Vec Ideal S1x2048 .f32) (ix2 (0 : Fin 1) f))
      = fun f => (V m c main_arg8 : S2048.Idx → EReal) (ix1 f) :=
    funext fun f => (blk8 m c t _).trans (Host.V_v12 m c f)
  have e9 : (fun e f => (iblk m c 9 t : Vec Ideal S2048x512 .bf16) (ix2 f e))
      = fun e f => (V m c main_arg9 : S512x2048.Idx → EReal) (ix2 e f) :=
    funext fun e => funext fun f => (blk9 m c t _).trans (Host.V_v14 m c f e)
  have e10 : (fun f => (iblk m c 10 t : Vec Ideal S1x512 .f32) (ix2 (0 : Fin 1) f))
      = fun f => (V m c main_arg10 : S512.Idx → EReal) (ix1 f) :=
    funext fun f => (blk10 m c t _).trans (Host.V_v15 m c f)
  have e11 : (fun f => (iblk m c 11 t : Vec Ideal S1x512 .f32) (ix2 (0 : Fin 1) f))
      = fun f => (V m c main_arg11 : S512.Idx → EReal) (ix1 f) :=
    funext fun f => (blk11 m c t _).trans (Host.V_v16 m c f)
  have e12 : (fun f => (iblk m c 12 t : Vec Ideal S1x512 .f32) (ix2 (0 : Fin 1) f))
      = fun f => (V m c main_arg12 : S512.Idx → EReal) (ix1 f) :=
    funext fun f => (blk12 m c t _).trans (Host.V_v17 m c f)
  rw [e0, e1, e2, e3, e4, e5, e8, e9, e10, e11, e12]
  refine congrFun (Spec.rowFPad_eq _ _ _ _ _ (fun q => (V m c main_arg6 : S8.Idx → EReal) (ix1 q))
    (fun f q => (V m c main_arg7 : S2048x8.Idx → EReal) (ix2 f q)) _ _ _ _ _ _
    (fun k => (iblk m c 6 t : Vec Ideal S1x512 .f32) (ix2 (0 : Fin 1) k))
    (fun k f => (iblk m c 7 t : Vec Ideal S512x2048 .bf16) (ix2 k f))
    (fun q => (blk6 m c t _).trans (Host.V_v8_low m c q))
    (fun q f => (blk7 m c t _).trans (Host.V_v11_low m c q f))
    (fun k f hk => (blk7 m c t _).trans (Host.V_v11_high m c k f hk))) q

/-- The same at any index of the block and any index of the flattened array with matching
    coordinates. -/
theorem point_idx (c : Dev nD) (t : Fin cfg0.N) (j : S512x512.Idx) (i : S32768x512.Idx)
    (h0 : (i 0).val = t.val * 512 + (j 0).val) (h1 : (i 1).val = (j 1).val) :
    out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) j
      = G2 m c i := by
  obtain ⟨p, q, rfl⟩ : ∃ (p q : Fin 512), j = ix2 p q := ⟨j 0, j 1, eq_ix2 j⟩
  obtain ⟨r, e, rfl⟩ : ∃ (r : Fin 32768) (e : Fin 512), i = ix2 r e := ⟨i 0, i 1, eq_ix2 i⟩
  obtain rfl : e = q := Fin.ext h1
  exact point_row m c t p e r h0

/-- WHAT POINT `t` WRITES BACK is block `t` of the flattened result. -/
theorem flushed_eq (c : Dev nD) (t : Fin cfg0.N) :
    (dats m 0 c).flushed 13 t = ((cfg0.win 13).blk t).view.read (Elt Ideal) (G2 m c) := by
  show (cfg0.win 13).cut (grid0.coords t) ((dats m 0 c).after 13 t) = _
  rw [after0_13]
  obtain ⟨-, -, -, -, -, -, -, -, -, -, -, -, -, -, -, -, -, -, -, -, -, -, -, -, -, -, ia, ib⟩ := idx_facts t
  funext j
  show out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) j
    = G2 m c (((cfg0.win 13).blk t).view.emb j)
  refine point_idx m c t j _ ?_ ?_
  · show win0_13.index t (0 : Fin 2) * 512 + 1 * (j 0).val = t.val * 512 + (j 0).val
    rw [ia]; omega
  · show win0_13.index t (1 : Fin 2) * 512 + 1 * (j 1).val = (j 1).val
    rw [ib]; omega

/-! ## The blocks cover the array -/

/-- An index of the flattened result is in point `t`'s block iff each coordinate is in the block's range. -/
theorem mem_blk (t : Fin cfg0.N) (i : S32768x512.Idx) :
    i ∈ ((cfg0.win 13).blk t).view.set ↔ ∀ a : Fin 2, win0_13.index t a * S512x512.size a ≤ (i a).val ∧ (i a).val < win0_13.index t a * S512x512.size a + S512x512.size a := by
  show i ∈ ((View.whole main_v18).slice (win0_13.rect t)).set ↔ _
  rw [View.set_slice_whole, Rect.mem_set_unit]
  exact Iff.rfl

/-- Row `r` is in the block of point `r / 512`. -/
theorem cover (i : S32768x512.Idx) :
    ∃ t : Fin cfg0.N, (cfg0.win 13).flush t = true ∧ i ∈ ((cfg0.win 13).blk t).view.set := by
  have h0 := idx2_lt0 i
  have h1 := idx2_lt1 i
  have hN : (i 0).val / 512 < cfg0.N := by show _ < grid0.N; rw [N_0]; omega
  refine ⟨⟨(i 0).val / 512, hN⟩, flush0_13 _, ?_⟩
  rw [mem_blk]
  obtain ⟨-, -, -, -, -, -, -, -, -, -, -, -, -, -, -, -, -, -, -, -, -, -, -, -, -, -, ia, ib⟩ := idx_facts ⟨(i 0).val / 512, hN⟩
  intro a
  match a with
  | ⟨0, _⟩ =>
    show win0_13.index ⟨(i 0).val / 512, hN⟩ (0 : Fin 2) * 512 ≤ (i 0).val ∧ (i 0).val < win0_13.index ⟨(i 0).val / 512, hN⟩ (0 : Fin 2) * 512 + 512
    rw [ia]; show (i 0).val / 512 * 512 ≤ (i 0).val ∧ (i 0).val < (i 0).val / 512 * 512 + 512; omega
  | ⟨1, _⟩ =>
    show win0_13.index ⟨(i 0).val / 512, hN⟩ (1 : Fin 2) * 512 ≤ (i 1).val ∧ (i 1).val < win0_13.index ⟨(i 0).val / 512, hN⟩ (1 : Fin 2) * 512 + 512
    rw [ib]; omega

/-- THE FLATTENED RESULT ARRAY after the region. -/
theorem final (c : Dev nD) : (dats m 0 c).arrAt 13 cfg0.N = G2 m c :=
  (dats m 0 c).arrAt_eq_of_cover 13 (G2 m c) (fun t _ => flushed_eq m c t) (cover)

/-! ## The reshape after the region -/

theorem tail_eq (c : Dev nD) :
    Pipeline.afterTail₀ cfgs (dats m) 0 (V0 m) [hostOps1] c main_v19 = G3d m c := by
  unfold Pipeline.afterTail₀
  show StableHlo.after hostOps1 _ (Proc.devRef .tc main_v19) = _
  after_results
  funext i
  show shapeCast S8x4096x512 (Pipeline.withArrays (cfgs 0).spec c (V0 m c) (fun w => (dats m 0 c).arrAt w (cfgs 0).N) (Proc.devRef .tc main_v18)) shapeCasts_S32768x512_S8x4096x512 i = _
  have hw : Pipeline.withArrays (cfgs 0).spec c (V0 m c) (fun w => (dats m 0 c).arrAt w (cfgs 0).N) (Proc.devRef .tc main_v18) = G2 m c :=
    (Pipeline.withArrays_arr spec0 launch0.win.arr_inj c _ _ 13).trans (final m c)
  rw [hw]
  obtain ⟨b, s, e, rfl⟩ : ∃ (b : Fin 8) (s : Fin 4096) (e : Fin 512), i = ix3 b s e := ⟨i 0, i 1, i 2, eq_ix3 i⟩
  have hb := b.isLt
  have hs := s.isLt
  refine (shapeCast_apply (G2 m c) shapeCasts_S32768x512_S8x4096x512 (ix3 b s e)
    (ix2 (⟨b.val * 4096 + s.val, by omega⟩ : Fin 32768) e) ?_).trans ?_
  · rewrite [Shape.rowMajor_val_two, Shape.rowMajor_val_three]
    show (b.val * 4096 + s.val) * 512 + e.val = (b.val * 4096 + s.val) * 512 + e.val
    rfl
  · unfold G2 G3d
    have e1 : (⟨(b.val * 4096 + s.val) / 4096, by omega⟩ : Fin 8) = b := Fin.ext (by show (b.val * 4096 + s.val) / 4096 = b.val; omega)
    have e2 : (⟨(b.val * 4096 + s.val) % 4096, Nat.mod_lt _ (by decide)⟩ : Fin 4096) = s := Fin.ext (by show (b.val * 4096 + s.val) % 4096 = s.val; omega)
    show Gm m c ⟨(b.val * 4096 + s.val) / 4096, _⟩ ⟨(b.val * 4096 + s.val) % 4096, _⟩ e = Gm m c b s e
    rw [e1, e2]

/-! ## The run, read -/

/-- Every weakly fair execution of the idealized kernel program terminates with the result array at
    `G3d` of the arguments and the arguments unchanged. -/
theorem run : θ_run defs (onTc (τ := τ) (main (F := Ideal))) ⟨m, fun _ => 0, ρ⟩ fun r => ∀ c : Dev nD,
      r.2.mem ((c.tc : Thread nD τ).loc main_v19) = G3d m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun r h c => ⟨((h c).2 main_v19 (Pipeline.mem_restRefs_of main_v19 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c)⟩)
    (run_main m ρ)

end Cert.KernelIdeal.Whole

end
-- ==== Proof.RefAttn.lean ====
/-
  The reference's first stage read at batch `b`, position `s`, feature `f`: the residual plus the
  dense layer on `cos (x + θ)`, the phases read as one row of 512 = 64 × 8 features.
-/
import proofs.«151062_j65481071402459_1_alg».proof.Proof.Gen.ReferenceIdeal.Read
import proofs.«151062_j65481071402459_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.Stages

open Idealize.ShloMosaic Idealize.ShloMosaic.ValueIdx Idealize.SL.Sem Cert.ReferenceIdeal Cert.ReferenceIdeal.Gen Cert.ReferenceIdeal.Read

/-- Splitting the row of 512 features into 64 × 8 and flattening it again returns the same index:
    `((b * 4096 + s) * 512 + k)` has quotient `b`, middle digit `s` and remainder `k`. -/
private theorem idx_v0_v5 (b : Fin 8) (s : Fin 4096) (k : Fin 512) :
    idx_main_v0 (idx_main_v5 (ix3 b s k)) = ix3 b s k := by
  have hb := b.isLt; have hs := s.isLt; have hk := k.isLt
  funext a
  refine Fin.ext ?_
  match a with
  | ⟨0, _⟩ =>
    show (((((((b.val * 4096 + s.val) * 512 + k.val) / 2097152) * 4096
      + ((b.val * 4096 + s.val) * 512 + k.val) / 512 % 4096) * 64
      + ((b.val * 4096 + s.val) * 512 + k.val) / 8 % 64) * 8
      + ((b.val * 4096 + s.val) * 512 + k.val) % 8) / 2097152) = b.val
    omega
  | ⟨1, _⟩ =>
    show (((((((b.val * 4096 + s.val) * 512 + k.val) / 2097152) * 4096
      + ((b.val * 4096 + s.val) * 512 + k.val) / 512 % 4096) * 64
      + ((b.val * 4096 + s.val) * 512 + k.val) / 8 % 64) * 8
      + ((b.val * 4096 + s.val) * 512 + k.val) % 8) / 512 % 4096) = s.val
    omega
  | ⟨2, _⟩ =>
    show (((((((b.val * 4096 + s.val) * 512 + k.val) / 2097152) * 4096
      + ((b.val * 4096 + s.val) * 512 + k.val) / 512 % 4096) * 64
      + ((b.val * 4096 + s.val) * 512 + k.val) / 8 % 64) * 8
      + ((b.val * 4096 + s.val) * 512 + k.val) % 8) % 512) = k.val
    omega

/-- The phase read at feature `k` of the row is the one at head `k / 8`, position `k % 8`. -/
private theorem idx_v1_v2_v5 (b : Fin 8) (s : Fin 4096) (k : Fin 512) :
    idx_main_v1 (idx_main_v2 (idx_main_v5 (ix3 b s k))) = ix2 (Spec.hi k) (Spec.lo k) := by
  have hb := b.isLt; have hs := s.isLt; have hk := k.isLt
  funext a
  refine Fin.ext ?_
  match a with
  | ⟨0, _⟩ =>
    show ((b.val * 4096 + s.val) * 512 + k.val) / 8 % 64 = k.val / 8
    omega
  | ⟨1, _⟩ =>
    show ((b.val * 4096 + s.val) * 512 + k.val) % 8 = k.val % 8
    omega

/-- The left operand of the contraction is read at the same batch and position, feature `k`. -/
private theorem lidx_v6 (b : Fin 8) (s : Fin 4096) (f k : Fin 512) :
    lidx_main_v6 (ix3 b s f) k = ix3 b s k := by
  funext a
  refine Fin.ext ?_
  match a with
  | ⟨0, _⟩ => rfl
  | ⟨1, _⟩ => rfl
  | ⟨2, _⟩ => rfl

/-- The weight is read at row `f`, column `k`. -/
private theorem ridx_v6 (b : Fin 8) (s : Fin 4096) (f k : Fin 512) :
    ridx_main_v6 (ix3 b s f) k = ix2 f k := by
  funext a
  refine Fin.ext ?_
  match a with
  | ⟨0, _⟩ => rfl
  | ⟨1, _⟩ => rfl

/-- The bias, broadcast over batch and position, is read at feature `f`. -/
private theorem idx_v7_v8 (b : Fin 8) (s : Fin 4096) (f : Fin 512) :
    idx_main_v7 (idx_main_v8 (ix3 b s f)) = ix1 f := by
  funext a
  refine Fin.ext ?_
  match a with
  | ⟨0, _⟩ => rfl

theorem v10_apply (x0 : (⟨S8x4096x512, .f32⟩ : BufTy).Contents (Elt Ideal)) (x1 : (⟨S64x8, .f32⟩ : BufTy).Contents (Elt Ideal)) (x2 : (⟨S512x512, .f32⟩ : BufTy).Contents (Elt Ideal)) (x3 : (⟨S512, .f32⟩ : BufTy).Contents (Elt Ideal))
    (b : Fin 8) (s : Fin 4096) (f : Fin 512) :
    val_main_v10 (F := Ideal) x0 x1 x2 x3 (ix3 b s f)
      = Spec.attnRow (fun e => x1 (ix2 (Spec.hi e) (Spec.lo e))) (fun f e => x2 (ix2 f e)) (fun f => x3 (ix1 f))
          (fun e => x0 (ix3 b s e)) f := by
  -- the residual plus (the contraction over the 512 features plus the bias)
  rw [val_main_v10_apply, val_main_v9_apply, val_main_v6_apply, val_main_v8_apply, val_main_v7_apply,
    idx_v7_v8]
  -- each term of the contraction: cos (x + θ) at feature k times the weight at (f, k)
  have hterm : ∀ k : Fin 512,
      val_main_v5 (F := Ideal) x0 x1 (lidx_main_v6 (ix3 b s f) k) * x2 (ridx_main_v6 (ix3 b s f) k)
        = Ideal.cos (x0 (ix3 b s k) + x1 (ix2 (Spec.hi k) (Spec.lo k))) * x2 (ix2 f k) := fun k => by
    rw [lidx_v6, ridx_v6, val_main_v5_apply, val_main_v4_apply, val_main_v3_apply, val_main_v0_apply,
      val_main_v2_apply, val_main_v1_apply, idx_v0_v5, idx_v1_v2_v5]
    rfl
  rw [Finset.sum_congr rfl fun k _ => hterm k]
  rfl

end Cert.ReferenceIdeal.Stages

end
-- ==== Proof.RefLn.lean ====
/-
  The reference's two layer normalisations read at batch `b`, position `s`, feature `e`, each as
  `Spec.lnRow` of the row of the stage before it.
-/
import proofs.«151062_j65481071402459_1_alg».proof.Proof.Gen.ReferenceIdeal.Read
import proofs.«151062_j65481071402459_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.Stages

open Idealize.ShloMosaic Idealize.ShloMosaic.ValueIdx Idealize.SL.Sem Cert.ReferenceIdeal Cert.ReferenceIdeal.Gen Cert.ReferenceIdeal.Read

/-- The mean stage of the first normalisation: at batch `b`, position `s` it is the sum of the row over its 512
    features (the initial value of the sum is zero) divided by 512. -/
private theorem mean_first (x0 : (⟨S8x4096x512, .f32⟩ : BufTy).Contents (Elt Ideal)) (x1 : (⟨S64x8, .f32⟩ : BufTy).Contents (Elt Ideal)) (x2 : (⟨S512x512, .f32⟩ : BufTy).Contents (Elt Ideal)) (x3 : (⟨S512, .f32⟩ : BufTy).Contents (Elt Ideal))
    (b : Fin 8) (s : Fin 4096) :
    val_main_v14 (F := Ideal) x0 x1 x2 x3 (ix3 b s (0 : Fin 1))
      = Spec.mean (fun k => val_main_v10 (F := Ideal) x0 x1 x2 x3 (ix3 b s k)) := by
  rw [val_main_v14_apply, val_main_v12_apply, val_main_v13_apply, val_main_cst_0_apply,
    val_main_v11_apply, val_main_cst_apply]
  have hi : ∀ k : Fin 512, idx_main_v11 (idx_main_v12 (ix3 b s (0 : Fin 1))) k = ix3 b s k := fun k =>
    funext fun a => Fin.ext (by match a with | ⟨0, _⟩ => rfl | ⟨1, _⟩ => rfl | ⟨2, _⟩ => rfl)
  simp only [hi, Ideal.hostDivf_def, Ideal.ofBits_def, Ideal.ofBits_zero_f32, zero_add]
  rfl

/-- The reciprocal-square-root stage of the first normalisation: the squared deviations from the mean are summed over
    the 512 features, divided by 512, the offset is added, and the reciprocal square root is taken. -/
private theorem rsqrt_first (x0 : (⟨S8x4096x512, .f32⟩ : BufTy).Contents (Elt Ideal)) (x1 : (⟨S64x8, .f32⟩ : BufTy).Contents (Elt Ideal)) (x2 : (⟨S512x512, .f32⟩ : BufTy).Contents (Elt Ideal)) (x3 : (⟨S512, .f32⟩ : BufTy).Contents (Elt Ideal))
    (b : Fin 8) (s : Fin 4096) :
    val_main_v26 (F := Ideal) x0 x1 x2 x3 (ix3 b s (0 : Fin 1))
      = Ideal.rsqrt (Spec.var (fun k => val_main_v10 (F := Ideal) x0 x1 x2 x3 (ix3 b s k)) + Spec.eps) := by
  rw [val_main_v26_apply, val_main_v25_apply, val_main_v21_apply, val_main_v19_apply,
    val_main_v20_apply, val_main_cst_2_apply, val_main_v24_apply, val_main_cst_3_apply,
    val_main_v18_apply, val_main_cst_1_apply]
  have hi : ∀ k : Fin 512, idx_main_v18 (idx_main_v19 (ix3 b s (0 : Fin 1))) k = ix3 b s k := fun k =>
    funext fun a => Fin.ext (by match a with | ⟨0, _⟩ => rfl | ⟨1, _⟩ => rfl | ⟨2, _⟩ => rfl)
  have hm : ∀ k : Fin 512, idx_main_v15 (ix3 b s k) = ix3 b s (0 : Fin 1) := fun k =>
    funext fun a => Fin.ext (by match a with | ⟨0, _⟩ => rfl | ⟨1, _⟩ => rfl | ⟨2, _⟩ => rfl)
  -- each term of the sum is the square of the row's entry minus the row's mean
  have hsq : ∀ k : Fin 512,
      val_main_v17 (F := Ideal) x0 x1 x2 x3 (idx_main_v18 (idx_main_v19 (ix3 b s (0 : Fin 1))) k)
        = (val_main_v10 (F := Ideal) x0 x1 x2 x3 (ix3 b s k) - Spec.mean (fun k => val_main_v10 (F := Ideal) x0 x1 x2 x3 (ix3 b s k)))
          * (val_main_v10 (F := Ideal) x0 x1 x2 x3 (ix3 b s k) - Spec.mean (fun k => val_main_v10 (F := Ideal) x0 x1 x2 x3 (ix3 b s k))) := by
    intro k
    rw [hi k, val_main_v17_apply, val_main_v16_apply, val_main_v15_apply, hm k, mean_first]
    rfl
  simp only [hsq, Ideal.hostDivf_def, Ideal.hostUnary_rsqrt_def, Ideal.addf_def, Ideal.ofBits_def,
    Ideal.ofBits_zero_f32, zero_add]
  rfl

theorem v34_apply (x0 : (⟨S8x4096x512, .f32⟩ : BufTy).Contents (Elt Ideal)) (x1 : (⟨S64x8, .f32⟩ : BufTy).Contents (Elt Ideal)) (x2 : (⟨S512x512, .f32⟩ : BufTy).Contents (Elt Ideal)) (x3 : (⟨S512, .f32⟩ : BufTy).Contents (Elt Ideal)) (x4 x5 : (⟨S512, .f32⟩ : BufTy).Contents (Elt Ideal))
    (b : Fin 8) (s : Fin 4096) (e : Fin 512) :
    val_main_v34 (F := Ideal) x0 x1 x2 x3 x4 x5 (ix3 b s e)
      = Spec.lnRow (fun k => x4 (ix1 k)) (fun k => x5 (ix1 k))
          (fun k => val_main_v10 (F := Ideal) x0 x1 x2 x3 (ix3 b s k)) e := by
  -- the broadcasts of the mean and of the reciprocal square root read them at (b, s, 0); the
  -- broadcasts of the scale and of the shift read them at the feature `e`
  have hm : idx_main_v22 (ix3 b s e) = ix3 b s (0 : Fin 1) :=
    funext fun a => Fin.ext (by match a with | ⟨0, _⟩ => rfl | ⟨1, _⟩ => rfl | ⟨2, _⟩ => rfl)
  have hr : idx_main_v27 (ix3 b s e) = ix3 b s (0 : Fin 1) :=
    funext fun a => Fin.ext (by match a with | ⟨0, _⟩ => rfl | ⟨1, _⟩ => rfl | ⟨2, _⟩ => rfl)
  have hg : idx_main_v29 (idx_main_v30 (ix3 b s e)) = ix1 e :=
    funext fun a => Fin.ext (by match a with | ⟨0, _⟩ => rfl)
  have hb : idx_main_v32 (idx_main_v33 (ix3 b s e)) = ix1 e :=
    funext fun a => Fin.ext (by match a with | ⟨0, _⟩ => rfl)
  rw [val_main_v34_apply, val_main_v31_apply, val_main_v28_apply, val_main_v23_apply,
    val_main_v22_apply, val_main_v27_apply, val_main_v30_apply, val_main_v29_apply,
    val_main_v33_apply, val_main_v32_apply, hm, hr, hg, hb, mean_first, rsqrt_first]
  rfl

/-- The mean stage of the second normalisation: at batch `b`, position `s` it is the sum of the row over its 512
    features (the initial value of the sum is zero) divided by 512. -/
private theorem mean_second (x0 : (⟨S8x4096x512, .f32⟩ : BufTy).Contents (Elt Ideal)) (x1 : (⟨S64x8, .f32⟩ : BufTy).Contents (Elt Ideal)) (x2 : (⟨S512x512, .f32⟩ : BufTy).Contents (Elt Ideal)) (x3 : (⟨S512, .f32⟩ : BufTy).Contents (Elt Ideal)) (x4 x5 : (⟨S512, .f32⟩ : BufTy).Contents (Elt Ideal)) (x6 : (⟨S8, .f32⟩ : BufTy).Contents (Elt Ideal)) (x7 : (⟨S2048x8, .f32⟩ : BufTy).Contents (Elt Ideal)) (x8 : (⟨S2048, .f32⟩ : BufTy).Contents (Elt Ideal)) (x9 : (⟨S512x2048, .f32⟩ : BufTy).Contents (Elt Ideal)) (x10 : (⟨S512, .f32⟩ : BufTy).Contents (Elt Ideal))
    (b : Fin 8) (s : Fin 4096) :
    val_main_v53 (F := Ideal) x0 x1 x2 x3 x4 x5 x6 x7 x8 x9 x10 (ix3 b s (0 : Fin 1))
      = Spec.mean (fun k => val_main_v49 (F := Ideal) x0 x1 x2 x3 x4 x5 x6 x7 x8 x9 x10 (ix3 b s k)) := by
  rw [val_main_v53_apply, val_main_v51_apply, val_main_v52_apply, val_main_cst_5_apply,
    val_main_v50_apply, val_main_cst_4_apply]
  have hi : ∀ k : Fin 512, idx_main_v50 (idx_main_v51 (ix3 b s (0 : Fin 1))) k = ix3 b s k := fun k =>
    funext fun a => Fin.ext (by match a with | ⟨0, _⟩ => rfl | ⟨1, _⟩ => rfl | ⟨2, _⟩ => rfl)
  simp only [hi, Ideal.hostDivf_def, Ideal.ofBits_def, Ideal.ofBits_zero_f32, zero_add]
  rfl

/-- The reciprocal-square-root stage of the second normalisation: the squared deviations from the mean are summed over
    the 512 features, divided by 512, the offset is added, and the reciprocal square root is taken. -/
private theorem rsqrt_second (x0 : (⟨S8x4096x512, .f32⟩ : BufTy).Contents (Elt Ideal)) (x1 : (⟨S64x8, .f32⟩ : BufTy).Contents (Elt Ideal)) (x2 : (⟨S512x512, .f32⟩ : BufTy).Contents (Elt Ideal)) (x3 : (⟨S512, .f32⟩ : BufTy).Contents (Elt Ideal)) (x4 x5 : (⟨S512, .f32⟩ : BufTy).Contents (Elt Ideal)) (x6 : (⟨S8, .f32⟩ : BufTy).Contents (Elt Ideal)) (x7 : (⟨S2048x8, .f32⟩ : BufTy).Contents (Elt Ideal)) (x8 : (⟨S2048, .f32⟩ : BufTy).Contents (Elt Ideal)) (x9 : (⟨S512x2048, .f32⟩ : BufTy).Contents (Elt Ideal)) (x10 : (⟨S512, .f32⟩ : BufTy).Contents (Elt Ideal))
    (b : Fin 8) (s : Fin 4096) :
    val_main_v65 (F := Ideal) x0 x1 x2 x3 x4 x5 x6 x7 x8 x9 x10 (ix3 b s (0 : Fin 1))
      = Ideal.rsqrt (Spec.var (fun k => val_main_v49 (F := Ideal) x0 x1 x2 x3 x4 x5 x6 x7 x8 x9 x10 (ix3 b s k)) + Spec.eps) := by
  rw [val_main_v65_apply, val_main_v64_apply, val_main_v60_apply, val_main_v58_apply,
    val_main_v59_apply, val_main_cst_7_apply, val_main_v63_apply, val_main_cst_8_apply,
    val_main_v57_apply, val_main_cst_6_apply]
  have hi : ∀ k : Fin 512, idx_main_v57 (idx_main_v58 (ix3 b s (0 : Fin 1))) k = ix3 b s k := fun k =>
    funext fun a => Fin.ext (by match a with | ⟨0, _⟩ => rfl | ⟨1, _⟩ => rfl | ⟨2, _⟩ => rfl)
  have hm : ∀ k : Fin 512, idx_main_v54 (ix3 b s k) = ix3 b s (0 : Fin 1) := fun k =>
    funext fun a => Fin.ext (by match a with | ⟨0, _⟩ => rfl | ⟨1, _⟩ => rfl | ⟨2, _⟩ => rfl)
  -- each term of the sum is the square of the row's entry minus the row's mean
  have hsq : ∀ k : Fin 512,
      val_main_v56 (F := Ideal) x0 x1 x2 x3 x4 x5 x6 x7 x8 x9 x10 (idx_main_v57 (idx_main_v58 (ix3 b s (0 : Fin 1))) k)
        = (val_main_v49 (F := Ideal) x0 x1 x2 x3 x4 x5 x6 x7 x8 x9 x10 (ix3 b s k) - Spec.mean (fun k => val_main_v49 (F := Ideal) x0 x1 x2 x3 x4 x5 x6 x7 x8 x9 x10 (ix3 b s k)))
          * (val_main_v49 (F := Ideal) x0 x1 x2 x3 x4 x5 x6 x7 x8 x9 x10 (ix3 b s k) - Spec.mean (fun k => val_main_v49 (F := Ideal) x0 x1 x2 x3 x4 x5 x6 x7 x8 x9 x10 (ix3 b s k))) := by
    intro k
    rw [hi k, val_main_v56_apply, val_main_v55_apply, val_main_v54_apply, hm k, mean_second]
    rfl
  simp only [hsq, Ideal.hostDivf_def, Ideal.hostUnary_rsqrt_def, Ideal.addf_def, Ideal.ofBits_def,
    Ideal.ofBits_zero_f32, zero_add]
  rfl

theorem v73_apply (x0 : (⟨S8x4096x512, .f32⟩ : BufTy).Contents (Elt Ideal)) (x1 : (⟨S64x8, .f32⟩ : BufTy).Contents (Elt Ideal)) (x2 : (⟨S512x512, .f32⟩ : BufTy).Contents (Elt Ideal)) (x3 : (⟨S512, .f32⟩ : BufTy).Contents (Elt Ideal)) (x4 x5 : (⟨S512, .f32⟩ : BufTy).Contents (Elt Ideal)) (x6 : (⟨S8, .f32⟩ : BufTy).Contents (Elt Ideal)) (x7 : (⟨S2048x8, .f32⟩ : BufTy).Contents (Elt Ideal)) (x8 : (⟨S2048, .f32⟩ : BufTy).Contents (Elt Ideal)) (x9 : (⟨S512x2048, .f32⟩ : BufTy).Contents (Elt Ideal)) (x10 : (⟨S512, .f32⟩ : BufTy).Contents (Elt Ideal)) (x11 x12 : (⟨S512, .f32⟩ : BufTy).Contents (Elt Ideal))
    (b : Fin 8) (s : Fin 4096) (e : Fin 512) :
    val_main_v73 (F := Ideal) x0 x1 x2 x3 x4 x5 x6 x7 x8 x9 x10 x11 x12 (ix3 b s e)
      = Spec.lnRow (fun k => x11 (ix1 k)) (fun k => x12 (ix1 k))
          (fun k => val_main_v49 (F := Ideal) x0 x1 x2 x3 x4 x5 x6 x7 x8 x9 x10 (ix3 b s k)) e := by
  -- the broadcasts of the mean and of the reciprocal square root read them at (b, s, 0); the
  -- broadcasts of the scale and of the shift read them at the feature `e`
  have hm : idx_main_v61 (ix3 b s e) = ix3 b s (0 : Fin 1) :=
    funext fun a => Fin.ext (by match a with | ⟨0, _⟩ => rfl | ⟨1, _⟩ => rfl | ⟨2, _⟩ => rfl)
  have hr : idx_main_v66 (ix3 b s e) = ix3 b s (0 : Fin 1) :=
    funext fun a => Fin.ext (by match a with | ⟨0, _⟩ => rfl | ⟨1, _⟩ => rfl | ⟨2, _⟩ => rfl)
  have hg : idx_main_v68 (idx_main_v69 (ix3 b s e)) = ix1 e :=
    funext fun a => Fin.ext (by match a with | ⟨0, _⟩ => rfl)
  have hb : idx_main_v71 (idx_main_v72 (ix3 b s e)) = ix1 e :=
    funext fun a => Fin.ext (by match a with | ⟨0, _⟩ => rfl)
  rw [val_main_v73_apply, val_main_v70_apply, val_main_v67_apply, val_main_v62_apply,
    val_main_v61_apply, val_main_v66_apply, val_main_v69_apply, val_main_v68_apply,
    val_main_v72_apply, val_main_v71_apply, hm, hr, hg, hb, mean_second, rsqrt_second]
  rfl

end Cert.ReferenceIdeal.Stages

end
-- ==== Proof.RefFfn.lean ====
/-
  The reference's two-layer stage read at batch `b`, position `s`, feature `e`: the first eight
  features of the normalised row through `cos (· + θ)`, a dense layer, the maximum with zero, a
  second dense layer, and the residual.
-/
import proofs.«151062_j65481071402459_1_alg».proof.Proof.Gen.ReferenceIdeal.Read
import proofs.«151062_j65481071402459_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.Stages

open Idealize.ShloMosaic Idealize.ShloMosaic.ValueIdx Idealize.SL.Sem Cert.ReferenceIdeal Cert.ReferenceIdeal.Gen Cert.ReferenceIdeal.Read

/-- The hidden layer read at batch `b`, position `s`, hidden feature `f`: the sum over the first
    eight features `q` of `cos (y q + θ q) * W1 f q`, plus `b1 f`, then the maximum with zero, where
    `y` is the normalised row at `(b, s)`. The slice reads feature `q < 8` of the row at the same
    `q` seen as a feature below 512; the broadcasts read `θ` at `q` and `b1` at `f`; the constant
    the maximum is taken with is the binary32 zero, which is `0`. -/
theorem v44_apply (x0 : (⟨S8x4096x512, .f32⟩ : BufTy).Contents (Elt Ideal)) (x1 : (⟨S64x8, .f32⟩ : BufTy).Contents (Elt Ideal)) (x2 : (⟨S512x512, .f32⟩ : BufTy).Contents (Elt Ideal)) (x3 : (⟨S512, .f32⟩ : BufTy).Contents (Elt Ideal)) (x4 x5 : (⟨S512, .f32⟩ : BufTy).Contents (Elt Ideal)) (x6 : (⟨S8, .f32⟩ : BufTy).Contents (Elt Ideal)) (x7 : (⟨S2048x8, .f32⟩ : BufTy).Contents (Elt Ideal)) (x8 : (⟨S2048, .f32⟩ : BufTy).Contents (Elt Ideal))
    (b : Fin 8) (s : Fin 4096) (f : Fin 2048) :
    val_main_v44 (F := Ideal) x0 x1 x2 x3 x4 x5 x6 x7 x8 (ix3 b s f)
      = Spec.hidden (fun q => x6 (ix1 q)) (fun f q => x7 (ix2 f q)) (fun f => x8 (ix1 f))
          (fun k => val_main_v34 (F := Ideal) x0 x1 x2 x3 x4 x5 (ix3 b s k)) f := by
  -- the indices the layout operations read at, coordinate by coordinate
  have e41 : idx_main_v41 (idx_main_v42 (ix3 b s f)) = ix1 f :=
    funext fun a => Fin.ext (by match a with | ⟨0, _⟩ => rfl)
  have el : ∀ k : Fin 8, lidx_main_v40 (ix3 b s f) k = ix3 b s k := fun k =>
    funext fun a => Fin.ext (by match a with | ⟨0, _⟩ => rfl | ⟨1, _⟩ => rfl | ⟨2, _⟩ => rfl)
  have er : ∀ k : Fin 8, ridx_main_v40 (ix3 b s f) k = ix2 f k := fun k =>
    funext fun a => Fin.ext (by match a with | ⟨0, _⟩ => rfl | ⟨1, _⟩ => rfl)
  have e35 : ∀ k : Fin 8, idx_main_v35 (ix3 b s k) = ix3 b s (Spec.low k) := fun k =>
    funext fun a => Fin.ext (by match a with | ⟨0, _⟩ => rfl | ⟨1, _⟩ => rfl | ⟨2, _⟩ => rfl)
  have e36 : ∀ k : Fin 8, idx_main_v36 (idx_main_v37 (ix3 b s k)) = ix1 k := fun k =>
    funext fun a => Fin.ext (by match a with | ⟨0, _⟩ => rfl)
  -- the maximum with zero of (the sum over the eight features) + b1 f
  rw [val_main_v44_apply, val_main_v43_apply, val_main_v40_apply, val_main_v42_apply, val_main_v41_apply,
    val_main_call0_v0_apply, val_main_call0_cst_apply, e41]
  unfold Spec.hidden
  rw [Ideal.maximumf_def, Ideal.addf_def, Ideal.ofBits_def, Ideal.ofBits_zero_f32]
  -- term by term: cos (y (low k) + θ k) * W1 f k
  refine congrArg (fun t => max (t + x8 (ix1 f)) 0) (Finset.sum_congr rfl fun k _ => ?_)
  rw [el, er, val_main_v39_apply, val_main_v38_apply, val_main_v35_apply, val_main_v37_apply, val_main_v36_apply,
    e35, e36, Ideal.hostUnary_cos_def, Ideal.addf_def]

theorem v49_apply (x0 : (⟨S8x4096x512, .f32⟩ : BufTy).Contents (Elt Ideal)) (x1 : (⟨S64x8, .f32⟩ : BufTy).Contents (Elt Ideal)) (x2 : (⟨S512x512, .f32⟩ : BufTy).Contents (Elt Ideal)) (x3 : (⟨S512, .f32⟩ : BufTy).Contents (Elt Ideal)) (x4 x5 : (⟨S512, .f32⟩ : BufTy).Contents (Elt Ideal)) (x6 : (⟨S8, .f32⟩ : BufTy).Contents (Elt Ideal)) (x7 : (⟨S2048x8, .f32⟩ : BufTy).Contents (Elt Ideal)) (x8 : (⟨S2048, .f32⟩ : BufTy).Contents (Elt Ideal)) (x9 : (⟨S512x2048, .f32⟩ : BufTy).Contents (Elt Ideal)) (x10 : (⟨S512, .f32⟩ : BufTy).Contents (Elt Ideal))
    (b : Fin 8) (s : Fin 4096) (e : Fin 512) :
    val_main_v49 (F := Ideal) x0 x1 x2 x3 x4 x5 x6 x7 x8 x9 x10 (ix3 b s e)
      = Spec.ffnRow (fun q => x6 (ix1 q)) (fun f q => x7 (ix2 f q)) (fun f => x8 (ix1 f)) (fun e f => x9 (ix2 e f))
          (fun e => x10 (ix1 e)) (fun k => val_main_v34 (F := Ideal) x0 x1 x2 x3 x4 x5 (ix3 b s k)) e := by
  -- the indices the broadcast of b2 and the second dense layer read at
  have e46 : idx_main_v46 (idx_main_v47 (ix3 b s e)) = ix1 e :=
    funext fun a => Fin.ext (by match a with | ⟨0, _⟩ => rfl)
  have el : ∀ k : Fin 2048, lidx_main_v45 (ix3 b s e) k = ix3 b s k := fun k =>
    funext fun a => Fin.ext (by match a with | ⟨0, _⟩ => rfl | ⟨1, _⟩ => rfl | ⟨2, _⟩ => rfl)
  have er : ∀ k : Fin 2048, ridx_main_v45 (ix3 b s e) k = ix2 e k := fun k =>
    funext fun a => Fin.ext (by match a with | ⟨0, _⟩ => rfl | ⟨1, _⟩ => rfl)
  -- y e + ((the sum over the 2048 hidden features of h f * W2 e f) + b2 e)
  rw [val_main_v49_apply, val_main_v48_apply, val_main_v45_apply, val_main_v47_apply, val_main_v46_apply, e46]
  unfold Spec.ffnRow Spec.ffnOut
  rw [Ideal.addf_def, Ideal.addf_def]
  -- term by term, the hidden layer at feature k is `Spec.hidden … k`
  refine congrArg (fun t => val_main_v34 (F := Ideal) x0 x1 x2 x3 x4 x5 (ix3 b s e) + (t + x10 (ix1 e)))
    (Finset.sum_congr rfl fun k _ => ?_)
  rw [el, er, v44_apply]

end Cert.ReferenceIdeal.Stages

end
-- ==== Proof.RefAll.lean ====
/-
  The reference's result read at batch `b`, position `s`, feature `e`: the row function of the
  token row `x0 b s`, stage by stage.
-/
import proofs.«151062_j65481071402459_1_alg».proof.Proof.Gen.ReferenceIdeal.Read
import proofs.«151062_j65481071402459_1_alg».proof.Proof.RefAttn
import proofs.«151062_j65481071402459_1_alg».proof.Proof.RefLn
import proofs.«151062_j65481071402459_1_alg».proof.Proof.RefFfn
import proofs.«151062_j65481071402459_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.Stages

open Idealize.ShloMosaic Idealize.ShloMosaic.ValueIdx Idealize.SL.Sem Cert.ReferenceIdeal Cert.ReferenceIdeal.Gen Cert.ReferenceIdeal.Read

theorem v73_eq (x0 : (⟨S8x4096x512, .f32⟩ : BufTy).Contents (Elt Ideal)) (x1 : (⟨S64x8, .f32⟩ : BufTy).Contents (Elt Ideal)) (x2 : (⟨S512x512, .f32⟩ : BufTy).Contents (Elt Ideal)) (x3 : (⟨S512, .f32⟩ : BufTy).Contents (Elt Ideal)) (x4 x5 : (⟨S512, .f32⟩ : BufTy).Contents (Elt Ideal)) (x6 : (⟨S8, .f32⟩ : BufTy).Contents (Elt Ideal)) (x7 : (⟨S2048x8, .f32⟩ : BufTy).Contents (Elt Ideal)) (x8 : (⟨S2048, .f32⟩ : BufTy).Contents (Elt Ideal)) (x9 : (⟨S512x2048, .f32⟩ : BufTy).Contents (Elt Ideal)) (x10 : (⟨S512, .f32⟩ : BufTy).Contents (Elt Ideal)) (x11 x12 : (⟨S512, .f32⟩ : BufTy).Contents (Elt Ideal))
    (b : Fin 8) (s : Fin 4096) (e : Fin 512) :
    val_main_v73 (F := Ideal) x0 x1 x2 x3 x4 x5 x6 x7 x8 x9 x10 x11 x12 (ix3 b s e)
      = Spec.G3 (fun b s e => x0 (ix3 b s e)) (fun h d => x1 (ix2 h d)) (fun f e => x2 (ix2 f e)) (fun f => x3 (ix1 f))
          (fun k => x4 (ix1 k)) (fun k => x5 (ix1 k)) (fun q => x6 (ix1 q)) (fun f q => x7 (ix2 f q)) (fun f => x8 (ix1 f))
          (fun e f => x9 (ix2 e f)) (fun e => x10 (ix1 e)) (fun k => x11 (ix1 k)) (fun k => x12 (ix1 k)) b s e := by
  rw [v73_apply]
  unfold Spec.G3 Spec.rowF
  refine congrArg (fun r => Spec.lnRow _ _ r e) (funext fun k => ?_)
  rw [v49_apply]
  refine congrArg (fun r => Spec.ffnRow _ _ _ _ _ r k) (funext fun k' => ?_)
  rw [v34_apply]
  refine congrArg (fun r => Spec.lnRow _ _ r k') (funext fun k'' => ?_)
  rw [v10_apply]

end Cert.ReferenceIdeal.Stages

end
-- ==== Proof.lean ====
/-
  The certificate: `LN₂ (x₁ + N (x₁))` with `x₁ = LN₁ (x + D (x))` on every row `x` of 512 features
  (`D` a dense layer on `cos (x + θ)`, `N` a two-layer network on `cos` of the first eight features
  plus phases, `LN` a layer normalisation), the kernel against its reference, over the extended
  reals.

  Both programs compute, for every token row (batch `b`, position `s`), the same row function
  `Spec.rowF` of the row and the parameters (`Spec.G3`): a dense layer on `cos (x + θ)` with its
  residual, a layer normalisation, a two-layer network on `cos` of the first eight features plus
  phases with its residual, and a second layer normalisation. The kernel works on the token array
  flattened to 32768 rows, 512 rows per grid point, with the parameters re-laid on the host
  (transposed weights, one-row vectors) and the first layer of the two-layer network padded to 512
  input features with zero weights; on the extended reals a product with a zero weight is zero,
  so the padded sum over 512 features is the reference's sum over eight. Sums, quotients by 512,
  the reciprocal square root, the cosine and the maximum with zero are the same operations on
  both sides, a change of float format is the identity, and the precondition is never used.

  The three frames are the generated ones (the reference's from its generated run); `preserves`
  is trivial (the idealization rewrote nothing); `algebraic` pairs the kernel's run, read to the
  whole result array (`Whole.run`), with the reference's run read stage by stage (`Stages.v73_eq`).
-/
import proofs.«151062_j65481071402459_1_alg».proof.Defs
import proofs.«151062_j65481071402459_1_alg».proof.Proof.Gen.Kernel
import proofs.«151062_j65481071402459_1_alg».proof.Proof.Gen.Kernel.Frame
import proofs.«151062_j65481071402459_1_alg».proof.Proof.Gen.KernelIdeal
import proofs.«151062_j65481071402459_1_alg».proof.Proof.Gen.KernelIdeal.Frame
import proofs.«151062_j65481071402459_1_alg».proof.Proof.Gen.ReferenceIdeal
import proofs.«151062_j65481071402459_1_alg».proof.Proof.Gen.Pre_finite_inputs
import proofs.«151062_j65481071402459_1_alg».proof.Proof.Gen.ReferenceIdeal.Run
import proofs.«151062_j65481071402459_1_alg».proof.Proof.Gen.ReferenceIdeal.Read
import proofs.«151062_j65481071402459_1_alg».proof.Proof.Spec
import proofs.«151062_j65481071402459_1_alg».proof.Proof.KValue
import proofs.«151062_j65481071402459_1_alg».proof.Proof.RefAll
import Idealize.ShloMosaic.Adequacy
import Idealize.ShloMosaic.Init

noncomputable section

namespace Cert.Proof

open Idealize.ShloMosaic Idealize.ShloMosaic.TcCoe Idealize.ShloMosaic.ValueIdx Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result array at `Spec.G3` of the (agreeing) arguments. -/
theorem algebraic : Cert.algebraic_KernelIdeal_ReferenceIdeal := by
  intro m ρ m' ρ' _ hagree
  refine ⟨fun c => Cert.KernelIdeal.Whole.G3d m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v73_eq]
  obtain ⟨h0, h1, h2, h3, h4, h5, h6, h7, h8, h9, h10, h11, h12⟩ := hagree c
  rw [h0, h1, h2, h3, h4, h5, h6, h7, h8, h9, h10, h11, h12]
  funext i
  obtain ⟨b, s, e, rfl⟩ : ∃ (b : Fin 8) (s : Fin 4096) (e : Fin 512), i = ix3 b s e := ⟨i 0, i 1, i 2, eq_ix3 i⟩
  rw [Cert.ReferenceIdeal.Stages.v73_eq]
  exact (Cert.KernelIdeal.Whole.G3d_apply m c b s e).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
